-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3136x384 : Shape := ⟨3, ![32, 3136, 384]⟩
abbrev S1152x384 : Shape := ⟨2, ![1152, 384]⟩
abbrev S8x1x1 : Shape := ⟨3, ![8, 1, 1]⟩
abbrev S384x384 : Shape := ⟨2, ![384, 384]⟩
abbrev S384 : Shape := ⟨1, ![384]⟩
abbrev S_ : Shape := ⟨0, ![]⟩

class Facts : Prop where
  bcast_S_S32x3136x384 : S_.BroadcastsInDim S32x3136x384 (![] : Fin 0 → Fin S32x3136x384.rank)
  reducesTo_S32x3136x384_S_d0_1_2 : S32x3136x384.ReducesTo [0, 1, 2] S_
  h_S_ : 0 < S_.numel
  bcast_S_S1152x384 : S_.BroadcastsInDim S1152x384 (![] : Fin 0 → Fin S1152x384.rank)
  reducesTo_S1152x384_S_d0_1 : S1152x384.ReducesTo [0, 1] S_
  bcast_S_S8x1x1 : S_.BroadcastsInDim S8x1x1 (![] : Fin 0 → Fin S8x1x1.rank)
  reducesTo_S8x1x1_S_d0_1_2 : S8x1x1.ReducesTo [0, 1, 2] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_

variable [Facts]

def fn_part1 {F : FTy → Type} [FloatOps F] (main_arg4 : FVec F S384 .f32) (main_v13 : IVec S_ 1) (main_v16 : IVec S384x384 1) : IVec S_ 1 :=
  let main_c_5 : IVec S_ 1 := constantI S_ 1 1#1
  let main_v17 : IVec S_ 1 := (fun x v => Host.reduce IntOp.andi x v reducesTo_S384x384_S_d0_1 h_S_) main_v16 main_c_5
  let main_v18 : IVec S_ 1 := andi main_v13 main_v17
  let main_v19 : FVec F S384 .f32 := Host.absf main_arg4
  let main_cst_6 : FVec F S_ .f32 := constant S_ .f32 0x7F800000#32
  let main_v20 : FVec F S384 .f32 := broadcastInDim S384 ![] bcast_S_S384 main_cst_6
  let main_v21 : IVec S384 1 := cmpf .olt main_v19 main_v20
  let main_c_7 : IVec S_ 1 := constantI S_ 1 1#1
  let main_v22 : IVec S_ 1 := (fun x v => Host.reduce IntOp.andi x v reducesTo_S384_S_d0 h_S_) main_v21 main_c_7
  let main_v23 : IVec S_ 1 := andi main_v18 main_v22
  main_v23

def fn {F : FTy → Type} [FloatOps F] (main_arg0 : FVec F S32x3136x384 .f32) (main_arg1 : FVec F S1152x384 .f32) (main_arg2 : FVec F S8x1x1 .f32) (main_arg3 : FVec F S384x384 .f32) (main_arg4 : FVec F S384 .f32) : IVec S_ 1 :=
  let main_v0 : FVec F S32x3136x384 .f32 := Host.absf main_arg0
  let main_cst : FVec F S_ .f32 := constant S_ .f32 0x7F800000#32
  let main_v1 : FVec F S32x3136x384 .f32 := broadcastInDim S32x3136x384 ![] bcast_S_S32x3136x384 main_cst
  let main_v2 : IVec S32x3136x384 1 := cmpf .olt main_v0 main_v1
  let main_c : IVec S_ 1 := constantI S_ 1 1#1
  let main_v3 : IVec S_ 1 := (fun x v => Host.reduce IntOp.andi x v reducesTo_S32x3136x384_S_d0_1_2 h_S_) main_v2 main_c
  let main_v4 : FVec F S1152x384 .f32 := Host.absf main_arg1
  let main_cst_0 : FVec F S_ .f32 := constant S_ .f32 0x7F800000#32
  let main_v5 : FVec F S1152x384 .f32 := broadcastInDim S1152x384 ![] bcast_S_S1152x384 main_cst_0
  let main_v6 : IVec S1152x384 1 := cmpf .olt main_v4 main_v5
  let main_c_1 : IVec S_ 1 := constantI S_ 1 1#1
  let main_v7 : IVec S_ 1 := (fun x v => Host.reduce IntOp.andi x v reducesTo_S1152x384_S_d0_1 h_S_) main_v6 main_c_1
  let main_v8 : IVec S_ 1 := andi main_v3 main_v7
  let main_v9 : FVec F S8x1x1 .f32 := Host.absf main_arg2
  let main_cst_2 : FVec F S_ .f32 := constant S_ .f32 0x7F800000#32
  let main_v10 : FVec F S8x1x1 .f32 := broadcastInDim S8x1x1 ![] bcast_S_S8x1x1 main_cst_2
  let main_v11 : IVec S8x1x1 1 := cmpf .olt main_v9 main_v10
  let main_c_3 : IVec S_ 1 := constantI S_ 1 1#1
  let main_v12 : IVec S_ 1 := (fun x v => Host.reduce IntOp.andi x v reducesTo_S8x1x1_S_d0_1_2 h_S_) main_v11 main_c_3
  let main_v13 : IVec S_ 1 := andi main_v8 main_v12
  let main_v14 : FVec F S384x384 .f32 := Host.absf main_arg3
  let main_cst_4 : FVec F S_ .f32 := constant S_ .f32 0x7F800000#32
  let main_v15 : FVec F S384x384 .f32 := broadcastInDim S384x384 ![] bcast_S_S384x384 main_cst_4
  let main_v16 : IVec S384x384 1 := cmpf .olt main_v14 main_v15
  fn_part1 (F := F) main_arg4 main_v13 main_v16
-- ==== Kernel.lean ====
abbrev S32x3136x384 : Shape := ⟨3, ![32, 3136, 384]⟩
abbrev S1152x384 : Shape := ⟨2, ![1152, 384]⟩
abbrev S8x1x1 : Shape := ⟨3, ![8, 1, 1]⟩
abbrev S384x384 : Shape := ⟨2, ![384, 384]⟩
abbrev S384 : Shape := ⟨1, ![384]⟩
abbrev S1x3136x384 : Shape := ⟨3, ![1, 3136, 384]⟩
abbrev S3136x384 : Shape := ⟨2, ![3136, 384]⟩
abbrev S3136x1152 : Shape := ⟨2, ![3136, 1152]⟩
abbrev S3136x48 : Shape := ⟨2, ![3136, 48]⟩
abbrev S48 : Shape := ⟨1, ![48]⟩
abbrev S1x48 : Shape := ⟨2, ![1, 48]⟩
abbrev S48x48 : Shape := ⟨2, ![48, 48]⟩
abbrev S48x1 : Shape := ⟨2, ![48, 1]⟩
abbrev S1x1x1 : Shape := ⟨3, ![1, 1, 1]⟩
abbrev S384x48 : Shape := ⟨2, ![384, 48]⟩
abbrev S1x384 : Shape := ⟨2, ![1, 384]⟩

abbrev nBuf : Space → Nat
  | .hbm => 6
  | .vmem => 8
  | .smem => 0
  | _ => 0

abbrev bufTy : (tb : Table) → Fin (tcTables nBuf tb) → BufTy
  | .hbm, ⟨0, _⟩ => ⟨S32x3136x384, .f32⟩
  | .hbm, ⟨1, _⟩ => ⟨S1152x384, .f32⟩
  | .hbm, ⟨2, _⟩ => ⟨S8x1x1, .f32⟩
  | .hbm, ⟨3, _⟩ => ⟨S384x384, .f32⟩
  | .hbm, ⟨4, _⟩ => ⟨S384, .f32⟩
  | .hbm, ⟨5, _⟩ => ⟨S32x3136x384, .f32⟩
  | .local _ .vmem, ⟨0, _⟩ => ⟨S1x3136x384, .f32⟩
  | .local _ .vmem, ⟨1, _⟩ => ⟨S1x3136x384, .f32⟩
  | .local _ .vmem, ⟨2, _⟩ => ⟨S1152x384, .f32⟩
  | .local _ .vmem, ⟨3, _⟩ => ⟨S8x1x1, .f32⟩
  | .local _ .vmem, ⟨4, _⟩ => ⟨S384x384, .f32⟩
  | .local _ .vmem, ⟨5, _⟩ => ⟨S384, .f32⟩
  | .local _ .vmem, ⟨6, _⟩ => ⟨S1x3136x384, .f32⟩
  | .local _ .vmem, ⟨7, _⟩ => ⟨S1x3136x384, .f32⟩
  | _, _ => ⟨S32x3136x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3136x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x3136x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S1x3136x384_S1x3136x384_0_0_0 : ∀ a, (![0, 0, 0] : Fin 3 → Nat) a + S1x3136x384.size a ≤ S1x3136x384.size a
  h_S1x3136x384 : 0 < S1x3136x384.numel
  shapeCasts_S1x3136x384_S3136x384 : S1x3136x384.ShapeCasts S3136x384
  inb_S1152x384_S1152x384_0_0 : ∀ a, (![0, 0] : Fin 2 → Nat) a + S1152x384.size a ≤ S1152x384.size a
  h_S1152x384 : 0 < S1152x384.numel
  bitsLt_bf16_f32 : FTy.bits .bf16 < FTy.bits .f32
  slices_S3136x1152_o0_0_S3136x384 : S3136x1152.Slices ![0, 0] S3136x384
  slices_S3136x1152_o0_384_S3136x384 : S3136x1152.Slices ![0, 384] S3136x384
  slices_S3136x1152_o0_768_S3136x384 : S3136x1152.Slices ![0, 768] S3136x384
  inb_S8x1x1_S8x1x1_0_0_0 : ∀ a, (![0, 0, 0] : Fin 3 → Nat) a + S8x1x1.size a ≤ S8x1x1.size a
  h_S8x1x1 : 0 < S8x1x1.numel
  inb_S384x384_S384x384_0_0 : ∀ a, (![0, 0] : Fin 2 → Nat) a + S384x384.size a ≤ S384x384.size a
  h_S384x384 : 0 < S384x384.numel
  shapeCasts_S3136x384_S1x3136x384 : S3136x384.ShapeCasts S1x3136x384
  slices_S3136x384_o0_0_S3136x48 : S3136x384.Slices ![0, 0] S3136x48
  reduces_S3136x48_S48 : S3136x48.Reduces [0] S48
  shapeCasts_S48_S1x48 : S48.ShapeCasts S1x48
  transposes_S1x48_p1_0_S48x1 : S1x48.Transposes [1, 0] S48x1
  broadcasts_S48x1_S48x48 : S48x1.Broadcasts S48x48
  broadcasts_S1x48_S48x48 : S1x48.Broadcasts S48x48
  slices_S8x1x1_o0_0_0_S1x1x1 : S8x1x1.Slices ![0, 0, 0] S1x1x1
  inpos_S1x1x1_p0_0_0 : ∀ a, (![0, 0, 0] : Fin 3 → Nat) a < S1x1x1.size a
  reduces_S48x48_S48 : S48x48.Reduces [1] S48
  shapeCasts_S48_S48x1 : S48.ShapeCasts S48x1
  slices_S384x384_o0_0_S384x48 : S384x384.Slices ![0, 0] S384x48
  slices_S3136x384_o0_48_S3136x48 : S3136x384.Slices ![0, 48] S3136x48
  slices_S8x1x1_o1_0_0_S1x1x1 : S8x1x1.Slices ![1, 0, 0] S1x1x1
  slices_S384x384_o0_48_S384x48 : S384x384.Slices ![0, 48] S384x48
  slices_S3136x384_o0_96_S3136x48 : S3136x384.Slices ![0, 96] S3136x48
  slices_S8x1x1_o2_0_0_S1x1x1 : S8x1x1.Slices ![2, 0, 0] S1x1x1
  slices_S384x384_o0_96_S384x48 : S384x384.Slices ![0, 96] S384x48
  slices_S3136x384_o0_144_S3136x48 : S3136x384.Slices ![0, 144] S3136x48
  slices_S8x1x1_o3_0_0_S1x1x1 : S8x1x1.Slices ![3, 0, 0] S1x1x1
  slices_S384x384_o0_144_S384x48 : S384x384.Slices ![0, 144] S384x48
  slices_S3136x384_o0_192_S3136x48 : S3136x384.Slices ![0, 192] S3136x48
  slices_S8x1x1_o4_0_0_S1x1x1 : S8x1x1.Slices ![4, 0, 0] S1x1x1
  slices_S384x384_o0_192_S384x48 : S384x384.Slices ![0, 192] S384x48
  slices_S3136x384_o0_240_S3136x48 : S3136x384.Slices ![0, 240] S3136x48
  slices_S8x1x1_o5_0_0_S1x1x1 : S8x1x1.Slices ![5, 0, 0] S1x1x1
  slices_S384x384_o0_240_S384x48 : S384x384.Slices ![0, 240] S384x48
  slices_S3136x384_o0_288_S3136x48 : S3136x384.Slices ![0, 288] S3136x48
  slices_S8x1x1_o6_0_0_S1x1x1 : S8x1x1.Slices ![6, 0, 0] S1x1x1
  slices_S384x384_o0_288_S384x48 : S384x384.Slices ![0, 288] S384x48
  slices_S3136x384_o0_336_S3136x48 : S3136x384.Slices ![0, 336] S3136x48
  slices_S8x1x1_o7_0_0_S1x1x1 : S8x1x1.Slices ![7, 0, 0] S1x1x1
  slices_S384x384_o0_336_S384x48 : S384x384.Slices ![0, 336] S384x48
  inb_S384_S384_0 : ∀ a, (![0] : Fin 1 → Nat) a + S384.size a ≤ S384.size a
  h_S384 : 0 < S384.numel
  shapeCasts_S384_S1x384 : S384.ShapeCasts S1x384
  broadcasts_S1x384_S3136x384 : S1x384.Broadcasts S3136x384
  dot_S3136x384_S1152x384_S3136x1152_1_1_0_0_n_n_wf : DotDims.WF S3136x384 S1152x384 S3136x1152 [1] [1] [0] [0] [] []
  dot_S3136x48_S3136x48_S48x48_0_0_1_1_n_n_wf : DotDims.WF S3136x48 S3136x48 S48x48 [0] [0] [1] [1] [] []
  dot_S3136x48_S48x48_S3136x48_1_1_0_0_n_n_wf : DotDims.WF S3136x48 S48x48 S3136x48 [1] [1] [0] [0] [] []
  dot_S3136x48_S384x48_S3136x384_1_1_0_0_n_n_wf : DotDims.WF S3136x48 S384x48 S3136x384 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3136x384.size a ≤ S32x3136x384.size a
  hwx0_0 : ∀ i : grid0.Coords, EltTy.bits .f32 = 32 ∨ (Rect.block (s := S32x3136x384) S1x3136x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x384.size a ≤ S1152x384.size a
  hwx0_1 : ∀ i : grid0.Coords, EltTy.bits .f32 = 32 ∨ (Rect.block (s := S1152x384) S1152x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x1x1.size a ≤ S8x1x1.size a
  hwx0_2 : ∀ i : grid0.Coords, EltTy.bits .f32 = 32 ∨ (Rect.block (s := S8x1x1) S8x1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x384.size a ≤ S384x384.size a
  hwx0_3 : ∀ i : grid0.Coords, EltTy.bits .f32 = 32 ∨ (Rect.block (s := S384x384) S384x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x3136x384.size a ≤ S32x3136x384.size a
  hwx0_5 : ∀ i : grid0.Coords, EltTy.bits .f32 = 32 ∨ (Rect.block (s := S32x3136x384) S1x3136x384.size (cc0_transform_5 i) (hinb0_5 i)).WholeWords (EltTy.packing .f32)

variable [Facts₀]

def dot_S3136x384_S1152x384_S3136x1152_1_1_0_0_n_n : DotDims S3136x384 S1152x384 S3136x1152 where
  lhsContracting := [1]
  rhsContracting := [1]
  lhsNonContracting := [0]
  rhsNonContracting := [0]
  lhsBatch := []
  rhsBatch := []
  wf := dot_S3136x384_S1152x384_S3136x1152_1_1_0_0_n_n_wf
def dot_S3136x48_S3136x48_S48x48_0_0_1_1_n_n : DotDims S3136x48 S3136x48 S48x48 where
  lhsContracting := [0]
  rhsContracting := [0]
  lhsNonContracting := [1]
  rhsNonContracting := [1]
  lhsBatch := []
  rhsBatch := []
  wf := dot_S3136x48_S3136x48_S48x48_0_0_1_1_n_n_wf
def dot_S3136x48_S48x48_S3136x48_1_1_0_0_n_n : DotDims S3136x48 S48x48 S3136x48 where
  lhsContracting := [1]
  rhsContracting := [1]
  lhsNonContracting := [0]
  rhsNonContracting := [0]
  lhsBatch := []
  rhsBatch := []
  wf := dot_S3136x48_S48x48_S3136x48_1_1_0_0_n_n_wf
def dot_S3136x48_S384x48_S3136x384_1_1_0_0_n_n : DotDims S3136x48 S384x48 S3136x384 where
  lhsContracting := [1]
  rhsContracting := [1]
  lhsNonContracting := [0]
  rhsNonContracting := [0]
  lhsBatch := []
  rhsBatch := []
  wf := dot_S3136x48_S384x48_S3136x384_1_1_0_0_n_n_wf

abbrev win0_0 : Pipeline.Window sig grid0 :=
  Pipeline.Window.ofSpec (Memref.whole main_arg0) S1x3136x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1152x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S1x3136x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x3136x384 : Shape := ⟨3, ![32, 3136, 384]⟩
abbrev S1152x384 : Shape := ⟨2, ![1152, 384]⟩
abbrev S8x1x1 : Shape := ⟨3, ![8, 1, 1]⟩
abbrev S384x384 : Shape := ⟨2, ![384, 384]⟩
abbrev S384 : Shape := ⟨1, ![384]⟩
abbrev S32x3136x1152 : Shape := ⟨3, ![32, 3136, 1152]⟩
abbrev S32x3136x3x8x48 : Shape := ⟨5, ![32, 3136, 3, 8, 48]⟩
abbrev S3x32x8x48x3136 : Shape := ⟨5, ![3, 32, 8, 48, 3136]⟩
abbrev S1x32x8x48x3136 : Shape := ⟨5, ![1, 32, 8, 48, 3136]⟩
abbrev S32x8x48x3136 : Shape := ⟨4, ![32, 8, 48, 3136]⟩
abbrev S_ : Shape := ⟨0, ![]⟩
abbrev S32x8x48 : Shape := ⟨3, ![32, 8, 48]⟩
abbrev S32x8x48x1 : Shape := ⟨4, ![32, 8, 48, 1]⟩
abbrev S32x8x48x48 : Shape := ⟨4, ![32, 8, 48, 48]⟩
abbrev S1x8x1x1 : Shape := ⟨4, ![1, 8, 1, 1]⟩
abbrev S32x3136x8x48 : Shape := ⟨4, ![32, 3136, 8, 48]⟩
abbrev S1x1x384 : Shape := ⟨3, ![1, 1, 384]⟩

abbrev nBuf : Space → Nat
  | .hbm => 59
  | .vmem => 0
  | .smem => 0
  | _ => 0

abbrev bufTy : (tb : Table) → Fin (tcTables nBuf tb) → BufTy
  | .hbm, ⟨0, _⟩ => ⟨S32x3136x384, .f32⟩
  | .hbm, ⟨1, _⟩ => ⟨S1152x384, .f32⟩
  | .hbm, ⟨2, _⟩ => ⟨S8x1x1, .f32⟩
  | .hbm, ⟨3, _⟩ => ⟨S384x384, .f32⟩
  | .hbm, ⟨4, _⟩ => ⟨S384, .f32⟩
  | .hbm, ⟨5, _⟩ => ⟨S32x3136x1152, .f32⟩
  | .hbm, ⟨6, _⟩ => ⟨S32x3136x3x8x48, .f32⟩
  | .hbm, ⟨7, _⟩ => ⟨S3x32x8x48x3136, .f32⟩
  | .hbm, ⟨8, _⟩ => ⟨S1x32x8x48x3136, .f32⟩
  | .hbm, ⟨9, _⟩ => ⟨S32x8x48x3136, .f32⟩
  | .hbm, ⟨10, _⟩ => ⟨S1x32x8x48x3136, .f32⟩
  | .hbm, ⟨11, _⟩ => ⟨S32x8x48x3136, .f32⟩
  | .hbm, ⟨12, _⟩ => ⟨S1x32x8x48x3136, .f32⟩
  | .hbm, ⟨13, _⟩ => ⟨S32x8x48x3136, .f32⟩
  | .hbm, ⟨14, _⟩ => ⟨S32x8x48x3136, .f32⟩
  | .hbm, ⟨15, _⟩ => ⟨S_, .f32⟩
  | .hbm, ⟨16, _⟩ => ⟨S32x8x48, .f32⟩
  | .hbm, ⟨17, _⟩ => ⟨S32x8x48x1, .f32⟩
  | .hbm, ⟨18, _⟩ => ⟨S32x8x48x1, .f32⟩
  | .hbm, ⟨19, _⟩ => ⟨S_, .f32⟩
  | .hbm, ⟨20, _⟩ => ⟨S32x8x48x1, .f32⟩
  | .hbm, ⟨21, _⟩ => ⟨S32x8x48x1, .f32⟩
  | .hbm, ⟨22, _⟩ => ⟨S32x8x48x3136, .f32⟩
  | .hbm, ⟨23, _⟩ => ⟨S32x8x48x3136, .f32⟩
  | .hbm, ⟨24, _⟩ => ⟨S32x8x48x3136, .f32⟩
  | .hbm, ⟨25, _⟩ => ⟨S_, .f32⟩
  | .hbm, ⟨26, _⟩ => ⟨S32x8x48, .f32⟩
  | .hbm, ⟨27, _⟩ => ⟨S32x8x48x1, .f32⟩
  | .hbm, ⟨28, _⟩ => ⟨S32x8x48x1, .f32⟩
  | .hbm, ⟨29, _⟩ => ⟨S_, .f32⟩
  | .hbm, ⟨30, _⟩ => ⟨S32x8x48x1, .f32⟩
  | .hbm, ⟨31, _⟩ => ⟨S32x8x48x1, .f32⟩
  | .hbm, ⟨32, _⟩ => ⟨S32x8x48x3136, .f32⟩
  | .hbm, ⟨33, _⟩ => ⟨S32x8x48x3136, .f32⟩
  | .hbm, ⟨34, _⟩ => ⟨S32x8x48x48, .f32⟩
  | .hbm, ⟨35, _⟩ => ⟨S1x8x1x1, .f32⟩
  | .hbm, ⟨36, _⟩ => ⟨S32x8x48x48, .f32⟩
  | .hbm, ⟨37, _⟩ => ⟨S32x8x48x48, .f32⟩
  | .hbm, ⟨38, _⟩ => ⟨S_, .f32⟩
  | .hbm, ⟨39, _⟩ => ⟨S32x8x48, .f32⟩
  | .hbm, ⟨40, _⟩ => ⟨S_, .f32⟩
  | .hbm, ⟨41, _⟩ => ⟨S32x8x48, .f32⟩
  | .hbm, ⟨42, _⟩ => ⟨S32x8x48, .f32⟩
  | .hbm, ⟨43, _⟩ => ⟨S32x8x48x1, .f32⟩
  | .hbm, ⟨44, _⟩ => ⟨S32x8x48x48, .f32⟩
  | .hbm, ⟨45, _⟩ => ⟨S32x8x48x48, .f32⟩
  | .hbm, ⟨46, _⟩ => ⟨S32x8x48x48, .f32⟩
  | .hbm, ⟨47, _⟩ => ⟨S_, .f32⟩
  | .hbm, ⟨48, _⟩ => ⟨S32x8x48, .f32⟩
  | .hbm, ⟨49, _⟩ => ⟨S32x8x48x1, .f32⟩
  | .hbm, ⟨50, _⟩ => ⟨S32x8x48x48, .f32⟩
  | .hbm, ⟨51, _⟩ => ⟨S32x8x48x48, .f32⟩
  | .hbm, ⟨52, _⟩ => ⟨S32x8x48x3136, .f32⟩
  | .hbm, ⟨53, _⟩ => ⟨S32x3136x8x48, .f32⟩
  | .hbm, ⟨54, _⟩ => ⟨S32x3136x384, .f32⟩
  | .hbm, ⟨55, _⟩ => ⟨S32x3136x384, .f32⟩
  | .hbm, ⟨56, _⟩ => ⟨S1x1x384, .f32⟩
  | .hbm, ⟨57, _⟩ => ⟨S32x3136x384, .f32⟩
  | .hbm, ⟨58, _⟩ => ⟨S32x3136x384, .f32⟩
  | _, _ => ⟨S32x3136x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩

abbrev nD : Nat := 1
abbrev τ : Topo := Topo.v7x

variable {F : FTy → Type} [FloatOps F]

class Facts₀ : Prop where
  shapeCasts_S32x3136x1152_S32x3136x3x8x48 : S32x3136x1152.ShapeCasts S32x3136x3x8x48
  transposes_S32x3136x3x8x48_S3x32x8x48x3136_2_0_3_4_1 : S32x3136x3x8x48.Transposes [2, 0, 3, 4, 1] S3x32x8x48x3136
  slices_S3x32x8x48x3136_S1x32x8x48x3136_0_0_0_0_0 : S3x32x8x48x3136.Slices ![0, 0, 0, 0, 0] S1x32x8x48x3136
  shapeCasts_S1x32x8x48x3136_S32x8x48x3136 : S1x32x8x48x3136.ShapeCasts S32x8x48x3136
  slices_S3x32x8x48x3136_S1x32x8x48x3136_1_0_0_0_0 : S3x32x8x48x3136.Slices ![1, 0, 0, 0, 0] S1x32x8x48x3136
  slices_S3x32x8x48x3136_S1x32x8x48x3136_2_0_0_0_0 : S3x32x8x48x3136.Slices ![2, 0, 0, 0, 0] S1x32x8x48x3136
  reducesTo_S32x8x48x3136_S32x8x48_d3 : S32x8x48x3136.ReducesTo [3] S32x8x48
  h_S_ : 0 < S_.numel
  bcast_S32x8x48_S32x8x48x1_0_1_2 : S32x8x48.BroadcastsInDim S32x8x48x1 (![0, 1, 2] : Fin 3 → Fin S32x8x48x1.rank)
  bcast_S_S32x8x48x1 : S_.BroadcastsInDim S32x8x48x1 (![] : Fin 0 → Fin S32x8x48x1.rank)
  bcast_S32x8x48x1_S32x8x48x3136_0_1_2_3 : S32x8x48x1.BroadcastsInDim S32x8x48x3136 (![0, 1, 2, 3] : Fin 4 → Fin S32x8x48x3136.rank)
  bcast_S8x1x1_S1x8x1x1_1_2_3 : S8x1x1.BroadcastsInDim S1x8x1x1 (![1, 2, 3] : Fin 3 → Fin S1x8x1x1.rank)
  bcast_S1x8x1x1_S32x8x48x48_0_1_2_3 : S1x8x1x1.BroadcastsInDim S32x8x48x48 (![0, 1, 2, 3] : Fin 4 → Fin S32x8x48x48.rank)
  reducesTo_S32x8x48x48_S32x8x48_d3 : S32x8x48x48.ReducesTo [3] S32x8x48
  bcast_S_S32x8x48 : S_.BroadcastsInDim S32x8x48 (![] : Fin 0 → Fin S32x8x48.rank)
  bcast_S32x8x48x1_S32x8x48x48_0_1_2_3 : S32x8x48x1.BroadcastsInDim S32x8x48x48 (![0, 1, 2, 3] : Fin 4 → Fin S32x8x48x48.rank)
  transposes_S32x8x48x3136_S32x3136x8x48_0_3_1_2 : S32x8x48x3136.Transposes [0, 3, 1, 2] S32x3136x8x48
  shapeCasts_S32x3136x8x48_S32x3136x384 : S32x3136x8x48.ShapeCasts S32x3136x384
  bcast_S384_S1x1x384_2 : S384.BroadcastsInDim S1x1x384 (![2] : Fin 1 → Fin S1x1x384.rank)
  bcast_S1x1x384_S32x3136x384_0_1_2 : S1x1x384.BroadcastsInDim S32x3136x384 (![0, 1, 2] : Fin 3 → Fin S32x3136x384.rank)
  dot_S32x3136x384_S1152x384_S32x3136x1152_2_1_01_0_n_n_wf : DotDims.WF S32x3136x384 S1152x384 S32x3136x1152 [2] [1] [0, 1] [0] [] []
  dot_S32x8x48x3136_S32x8x48x3136_S32x8x48x48_3_3_2_2_01_01_wf : DotDims.WF S32x8x48x3136 S32x8x48x3136 S32x8x48x48 [3] [3] [2] [2] [0, 1] [0, 1]
  dot_S32x8x48x48_S32x8x48x3136_S32x8x48x3136_3_2_2_3_01_01_wf : DotDims.WF S32x8x48x48 S32x8x48x3136 S32x8x48x3136 [3] [2] [2] [3] [0, 1] [0, 1]
  dot_S32x3136x384_S384x384_S32x3136x384_2_1_01_0_n_n_wf : DotDims.WF S32x3136x384 S384x384 S32x3136x384 [2] [1] [0, 1] [0] [] []

variable [Facts₀]

def dot_S32x3136x384_S1152x384_S32x3136x1152_2_1_01_0_n_n : DotDims S32x3136x384 S1152x384 S32x3136x1152 where
  lhsContracting := [2]
  rhsContracting := [1]
  lhsNonContracting := [0, 1]
  rhsNonContracting := [0]
  lhsBatch := []
  rhsBatch := []
  wf := dot_S32x3136x384_S1152x384_S32x3136x1152_2_1_01_0_n_n_wf
def dot_S32x8x48x3136_S32x8x48x3136_S32x8x48x48_3_3_2_2_01_01 : DotDims S32x8x48x3136 S32x8x48x3136 S32x8x48x48 where
  lhsContracting := [3]
  rhsContracting := [3]
  lhsNonContracting := [2]
  rhsNonContracting := [2]
  lhsBatch := [0, 1]
  rhsBatch := [0, 1]
  wf := dot_S32x8x48x3136_S32x8x48x3136_S32x8x48x48_3_3_2_2_01_01_wf
def dot_S32x8x48x48_S32x8x48x3136_S32x8x48x3136_3_2_2_3_01_01 : DotDims S32x8x48x48 S32x8x48x3136 S32x8x48x3136 where
  lhsContracting := [3]
  rhsContracting := [2]
  lhsNonContracting := [2]
  rhsNonContracting := [3]
  lhsBatch := [0, 1]
  rhsBatch := [0, 1]
  wf := dot_S32x8x48x48_S32x8x48x3136_S32x8x48x3136_3_2_2_3_01_01_wf
def dot_S32x3136x384_S384x384_S32x3136x384_2_1_01_0_n_n : DotDims S32x3136x384 S384x384 S32x3136x384 where
  lhsContracting := [2]
  rhsContracting := [1]
  lhsNonContracting := [0, 1]
  rhsNonContracting := [0]
  lhsBatch := []
  rhsBatch := []
  wf := dot_S32x3136x384_S384x384_S32x3136x384_2_1_01_0_n_n_wf

class Facts : Prop extends Facts₀ where

variable [Facts]
-- ==== Proof.KernelPieces.lean ====
/-
  What one grid point leaves in the output block, as one term of the point's five input blocks.

  The body stores the whole output block ten times: zeros first, then once per head the block read back plus
  that head's share, then the block read back plus the bias row. Every store covers the whole block, so a load
  that follows a store reads exactly what was stored, and the last store is what the block ends with: the chain
  acc0, acc1, …, acc8 of accumulators below, and the bias added to acc8.
-/
import proofs.«153895_j50328426774879_1_alg».proof.Proof.Gen.KernelIdeal.Frame
import Idealize.ShloMosaic.Lib.Pipeline.Value

set_option maxRecDepth 65536

noncomputable section

namespace Cert.KernelIdeal.Block

open Cert.KernelIdeal Cert.KernelIdeal.Gen
open Idealize.ShloMosaic Idealize.ShloMosaic.TcCoe Idealize.ShloMosaic.Tactic
open Idealize.SL Idealize.SL.Sem

variable {F : FTy → Type} [FloatOps F]

/-! ## A load of the whole block after a store of the whole block -/

theorem zero3 : (![0, 0, 0] : Fin 3 → Nat) = fun _ => 0 := by
  funext a; match a with | ⟨0, _⟩ => rfl | ⟨1, _⟩ => rfl | ⟨2, _⟩ => rfl

theorem zero2 : (![0, 0] : Fin 2 → Nat) = fun _ => 0 := by
  funext a; match a with | ⟨0, _⟩ => rfl | ⟨1, _⟩ => rfl

theorem zero1 : (![0] : Fin 1 → Nat) = fun _ => 0 := by
  funext a; match a with | ⟨0, _⟩ => rfl

/-- After a list of stores whose LAST one wrote the whole block, a load of the whole block reads that store's
    value, whatever the earlier stores were. -/
theorem readCov_cons_whole {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-! ## The accumulators -/

section
variable (x0 : Vec F S1x3136x384 .f32) (x1 : Vec F S1152x384 .f32) (x2 : Vec F S8x1x1 .f32) (x3 : Vec F S384x384 .f32)
  (x4 : Vec F S384 .f32)

/-- The block of zeros the accumulation starts from. -/
def acc0 : FVec F S1x3136x384 .f32 := k0_pay7

/-- After head 0's share. -/
def acc1 : FVec F S1x3136x384 .f32 :=
  k0_pay13 x2 x3 (k0_pay10 x0 x1) (k0_pay11 x0 x1) (k0_pay12 x0 x1) (acc0 (F := F))

/-- After head 1's share. -/
def acc2 : FVec F S1x3136x384 .f32 :=
  k0_pay20 x2 x3 (k0_pay14 (k0_pay4 x0 x1)) (k0_pay15 (k0_pay5 x0 x1)) (k0_pay16 (k0_pay6 x0 x1))
    (k0_pay17 (k0_pay4 x0 x1)) (k0_pay18 (k0_pay5 x0 x1)) k0_pay19 (acc1 x0 x1 x2 x3)

/-- After head 2's share. -/
def acc3 : FVec F S1x3136x384 .f32 :=
  k0_pay26 x2 x3 (k0_pay21 (k0_pay4 x0 x1)) (k0_pay22 (k0_pay5 x0 x1)) (k0_pay23 (k0_pay6 x0 x1))
    (k0_pay24 (k0_pay4 x0 x1)) (k0_pay25 (k0_pay5 x0 x1)) (acc2 x0 x1 x2 x3)

/-- After head 3's share. -/
def acc4 : FVec F S1x3136x384 .f32 :=
  k0_pay32 x2 x3 (k0_pay27 (k0_pay4 x0 x1)) (k0_pay28 (k0_pay5 x0 x1)) (k0_pay29 (k0_pay6 x0 x1))
    (k0_pay30 (k0_pay5 x0 x1)) (k0_pay31 (k0_pay4 x0 x1)) (acc3 x0 x1 x2 x3)

/-- After head 4's share. -/
def acc5 : FVec F S1x3136x384 .f32 :=
  k0_pay35 (k0_pay33 (k0_pay4 x0 x1) (k0_pay5 x0 x1) (k0_pay6 x0 x1) x2 x3) (k0_pay34 (acc4 x0 x1 x2 x3))

/-- After head 5's share. -/
def acc6 : FVec F S1x3136x384 .f32 :=
  k0_pay38 (k0_pay36 x3) (k0_pay37 (k0_pay4 x0 x1) (k0_pay5 x0 x1) (k0_pay6 x0 x1) x2) (acc5 x0 x1 x2 x3)

/-- After head 6's share. -/
def acc7 : FVec F S1x3136x384 .f32 :=
  k0_pay42 x3 (k0_pay39 (k0_pay6 x0 x1)) (k0_pay40 (k0_pay4 x0 x1) (k0_pay5 x0 x1) x2)
    (k0_pay41 (k0_pay4 x0 x1) (k0_pay5 x0 x1) x2) (acc6 x0 x1 x2 x3)

/-- After head 7's share. -/
def acc8 : FVec F S1x3136x384 .f32 :=
  k0_pay1 x3 (k0_pay43 (k0_pay6 x0 x1)) (k0_pay44 (k0_pay4 x0 x1) (k0_pay5 x0 x1) x2)
    (k0_pay45 (k0_pay4 x0 x1) (k0_pay5 x0 x1) x2) (acc7 x0 x1 x2 x3)

/-- What the block ends with: the eight shares and the bias row. -/
def blockTerm : FVec F S1x3136x384 .f32 := k0_pay2 (acc8 x0 x1 x2 x3) x4

end

/-! ## The run's pieces read back -/

/-- What the body's stores leave in the output block is `blockTerm` of the five input blocks. -/
theorem out_eq (c : Dev nD) (i : grid0.Coords) (arg1 : Memref sig .tc .vmem S1x3136x384 .f32) (harg1 : arg1.IsWhole) (arg2 : Memref sig .tc .vmem S1152x384 .f32) (harg2 : arg2.IsWhole) (arg3 : Memref sig .tc .vmem S8x1x1 .f32) (harg3 : arg3.IsWhole) (arg4 : Memref sig .tc .vmem S384x384 .f32) (harg4 : arg4.IsWhole) (arg5 : Memref sig .tc .vmem S384 .f32) (harg5 : arg5.IsWhole) (arg6 : Memref sig .tc .vmem S1x3136x384 .f32) (harg6 : arg6.IsWhole) (x0 : Vec F S1x3136x384 .f32) (x1 : Vec F S1152x384 .f32) (x2 : Vec F S8x1x1 .f32) (x3 : Vec F S384x384 .f32) (x4 : Vec F S384 .f32) :
    out0_A_5 c i arg1 harg1 arg2 harg2 arg3 harg3 arg4 harg4 arg5 harg5 arg6 harg6 x0 x1 x2 x3 x4 = blockTerm x0 x1 x2 x3 x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_cons_unit_zero (S := S1x3136x384) zero3]
  simp only [readCov_cons_whole (S := S1x3136x384) _ zero3, View.readAt_eq_ld, harg1.read_unread, harg2.read_unread,
    harg3.read_unread, harg4.read_unread, harg5.read_unread, View.ld_unit_zero (S := S1x3136x384) zero3,
    View.ld_unit_zero (S := S1152x384) zero2, View.ld_unit_zero (S := S8x1x1) zero3,
    View.ld_unit_zero (S := S384x384) zero2, View.ld_unit_zero (S := S384) zero1]
  rfl

end Cert.KernelIdeal.Block

end
-- ==== Proof.HeadDef.lean ====
/-
  One head of the kernel as a term of vector operations: from the head's 48-wide slices of the query, key and
  value projections, its temperature and its 48 columns of the output projection, to the head's share of the
  result block. The operations are the kernel's own, in its order: squares summed over the tokens, square
  roots floored by the constant, the cross-covariance product, the outer product of the two lengths, the
  quotient scaled by the temperature, softmax along rows, the product with the values, the product with the
  projection columns.
-/
import proofs.«153895_j50328426774879_1_alg».proof.KernelIdeal

noncomputable section

namespace Cert.KernelIdeal.Head

open Cert.KernelIdeal Idealize.ShloMosaic
open Facts₀ Facts

variable [Facts]
variable {F : FTy → Type} [FloatOps F]

noncomputable def headV (qh kh vh : FVec F S3136x48 .bf16) (t : F .f32) (pw : FVec F S384x48 .f32) : FVec F S3136x384 .f32 :=
  have v19 : FVec F S3136x48 .f32 := extf .f32 qh bitsLt_bf16_f32
  have v20 : FVec F S3136x48 .f32 := extf .f32 kh bitsLt_bf16_f32
  have v21 : FVec F S3136x48 .f32 := mulf v19 v19
  have cst_13 : FVec F S48 .f32 := constant S48 .f32 0x00000000#32
  have v22 : FVec F S48 .f32 := multiReduction .add [0] S48 v21 0x00000000#32 reduces_S3136x48_S48 (.inl rfl) rfl
  have v23 : FVec F S1x48 .f32 := shapeCast S1x48 v22 shapeCasts_S48_S1x48
  have v24 : FVec F S3136x48 .f32 := mulf v20 v20
  have cst_14 : FVec F S48 .f32 := constant S48 .f32 0x00000000#32
  have v25 : FVec F S48 .f32 := multiReduction .add [0] S48 v24 0x00000000#32 reduces_S3136x48_S48 (.inl rfl) rfl
  have v26 : FVec F S1x48 .f32 := shapeCast S1x48 v25 shapeCasts_S48_S1x48
  have v27 : FVec F S1x48 .f32 := sqrt v23
  have cst_15 : F .f32 := Scalar.ofBits .f32 0x2B8CBCCC#32
  have v28 : FVec F S1x48 .f32 := broadcast S1x48 cst_15
  have v29 : FVec F S1x48 .f32 := maximumf v27 v28
  have v30 : FVec F S1x48 .f32 := sqrt v26
  have cst_16 : F .f32 := Scalar.ofBits .f32 0x2B8CBCCC#32
  have v31 : FVec F S1x48 .f32 := broadcast S1x48 cst_16
  have v32 : FVec F S1x48 .f32 := maximumf v30 v31
  have cst_17 : FVec F S48x48 .f32 := constant S48x48 .f32 0x00000000#32
  have v33 : FVec F S48x48 .f32 := matmul dot_S3136x48_S3136x48_S48x48_0_0_1_1_n_n none qh kh cst_17
  have v34 : FVec F S48x1 .f32 := transpose S48x1 [1, 0] v29 transposes_S1x48_p1_0_S48x1
  have v35 : FVec F S48x48 .f32 := broadcastTo S48x48 v34 broadcasts_S48x1_S48x48
  have v36 : FVec F S48x48 .f32 := broadcastTo S48x48 v32 broadcasts_S1x48_S48x48
  have v37 : FVec F S48x48 .f32 := mulf v35 v36
  have v38 : FVec F S48x48 .f32 := divf v33 v37
  have v41 : FVec F S48x48 .f32 := broadcast S48x48 t
  have v42 : FVec F S48x48 .f32 := mulf v38 v41
  have cst_18 : FVec F S48 .f32 := constant S48 .f32 0xFF800000#32
  have v43 : FVec F S48 .f32 := multiReduction .maximumf [1] S48 v42 0xFF800000#32 reduces_S48x48_S48 (.inl rfl) rfl
  have cst_19 : F .f32 := Scalar.ofBits .f32 0xFF800000#32
  have v44 : FVec F S48 .f32 := broadcast S48 cst_19
  have v45 : FVec F S48 .f32 := maximumf v44 v43
  have v46 : FVec F S48x1 .f32 := shapeCast S48x1 v45 shapeCasts_S48_S48x1
  have v47 : FVec F S48x48 .f32 := broadcastTo S48x48 v46 broadcasts_S48x1_S48x48
  have v48 : FVec F S48x48 .f32 := subf v42 v47
  have v49 : FVec F S48x48 .f32 := exp v48
  have cst_20 : FVec F S48 .f32 := constant S48 .f32 0x00000000#32
  have v50 : FVec F S48 .f32 := multiReduction .add [1] S48 v49 0x00000000#32 reduces_S48x48_S48 (.inl rfl) rfl
  have v51 : FVec F S48x1 .f32 := shapeCast S48x1 v50 shapeCasts_S48_S48x1
  have v52 : FVec F S48x48 .f32 := broadcastTo S48x48 v51 broadcasts_S48x1_S48x48
  have v53 : FVec F S48x48 .f32 := divf v49 v52
  have v54 : FVec F S48x48 .bf16 := truncf .bf16 v53 bitsLt_bf16_f32
  have cst_21 : FVec F S3136x48 .f32 := constant S3136x48 .f32 0x00000000#32
  have v55 : FVec F S3136x48 .f32 := matmul dot_S3136x48_S48x48_S3136x48_1_1_0_0_n_n none vh v54 cst_21
  have v57 : FVec F S384x48 .bf16 := truncf .bf16 pw bitsLt_bf16_f32
  have v58 : FVec F S3136x48 .bf16 := truncf .bf16 v55 bitsLt_bf16_f32
  have cst_22 : FVec F S3136x384 .f32 := constant S3136x384 .f32 0x00000000#32
  have v59 : FVec F S3136x384 .f32 := matmul dot_S3136x48_S384x48_S3136x384_1_1_0_0_n_n none v58 v57 cst_22
  v59

end Cert.KernelIdeal.Head

end
-- ==== Proof.Spec.lean ====
/-
  Cross-covariance attention on one batch entry, written twice over plain tables of extended reals.

  From a token table X (3136 tokens of width 384) and a weight table W (1152 rows), the projected table is
  proj n e = ∑ d, X n d · W e d; its 1152 columns are three parts (queries, keys, values) of eight heads of 48
  channels each, column part·384 + head·48 + channel. For one head, with q, k, v its 3136 × 48 tables: the length
  of a channel's column over the tokens is floored by a small positive constant; the 48 × 48 table of logits is
  the cross-covariance of query and key channels over the tokens, divided by the two lengths and scaled by the
  head's temperature; each row of it is passed through softmax; the rows weight the value channels; and the
  head's 48 attended channels are projected by the matching 48 columns of P. The bias B is added at the end.

  The two spellings differ in two places only. One divides the summed products by the product of the two
  lengths; the other divides each factor by its own length before summing. One projects head by head and adds
  the eight results; the other projects all 384 columns in one sum.
-/
import Idealize.ShloMosaic.PureOps.Ideal

noncomputable section

open scoped BigOperators

namespace Cert.Xca

open Idealize.ShloMosaic

/-- The floor under a channel's length: one constant, the same word in both spellings. -/
def eps : EReal := Ideal.ofBits .f32 0x2B8CBCCC#32

/-- The value a row maximum starts from. -/
def ninf : EReal := Ideal.ofBits .f32 0xFF800000#32

/-! ## One head, over its own tables -/

/-- The floored length of channel `c`'s column over the tokens. -/
def len (f : Fin 3136 → Fin 48 → EReal) (c : Fin 48) : EReal :=
  max (Ideal.sqrt (∑ n : Fin 3136, f n c * f n c)) eps

/-- Logits, the covariance divided once by the product of the two lengths. -/
def logitsK (q k : Fin 3136 → Fin 48 → EReal) (t : EReal) (c d : Fin 48) : EReal :=
  Ideal.div (∑ n : Fin 3136, q n c * k n d) (len q c * len k d) * t

/-- Logits, each factor divided by its own length before the sum. -/
def logitsR (q k : Fin 3136 → Fin 48 → EReal) (t : EReal) (c d : Fin 48) : EReal :=
  (∑ n : Fin 3136, Ideal.div (q n c) (len q c) * Ideal.div (k n d) (len k d)) * t

/-- The maximum of row `c` of a 48 × 48 table, started from `ninf` and floored by it once more. -/
def rowmax (L : Fin 48 → Fin 48 → EReal) (c : Fin 48) : EReal :=
  max ninf ((Finset.univ : Finset (Fin 48)).fold max ninf (L c))

/-- Softmax along the second index: the row maximum is subtracted before the exponential. -/
def soft (L : Fin 48 → Fin 48 → EReal) (c d : Fin 48) : EReal :=
  Ideal.div (Ideal.exp (L c d - rowmax L c)) (∑ d' : Fin 48, Ideal.exp (L c d' - rowmax L c))

/-- One head's share of the result: the value channels weighted by the softmax rows (the value as the left
    factor), then projected by the head's 48 columns `pw`. -/
def headK (q k v : Fin 3136 → Fin 48 → EReal) (t : EReal) (pw : Fin 384 → Fin 48 → EReal)
    (n : Fin 3136) (e : Fin 384) : EReal :=
  ∑ c : Fin 48, (∑ d : Fin 48, v n d * soft (logitsK q k t) c d) * pw e c

/-- One head's attended values, the softmax weight as the left factor. -/
def attR (q k v : Fin 3136 → Fin 48 → EReal) (t : EReal) (n : Fin 3136) (c : Fin 48) : EReal :=
  ∑ d : Fin 48, soft (logitsR q k t) c d * v n d

/-! ## The eight heads -/

/-- Column of the projected table: part `s` (0 queries, 1 keys, 2 values), head `h`, channel `c`. -/
def col (s : Fin 3) (h : Fin 8) (c : Fin 48) : Fin 1152 :=
  ⟨s.val * 384 + h.val * 48 + c.val, by have := s.isLt; have := h.isLt; have := c.isLt; omega⟩

/-- Column of the output projection's input: head `h`, channel `c`. -/
def pcol (h : Fin 8) (c : Fin 48) : Fin 384 :=
  ⟨h.val * 48 + c.val, by have := h.isLt; have := c.isLt; omega⟩

/-- The head a projection column belongs to. -/
def hd (j : Fin 384) : Fin 8 := ⟨j.val / 48, by have := j.isLt; omega⟩

/-- The channel of a projection column inside its head. -/
def ch (j : Fin 384) : Fin 48 := ⟨j.val % 48, Nat.mod_lt _ (by decide)⟩

section
variable (X : Fin 3136 → Fin 384 → EReal) (W : Fin 1152 → Fin 384 → EReal) (T : Fin 8 → EReal)
  (P : Fin 384 → Fin 384 → EReal) (B : Fin 384 → EReal)

/-- The projected table. -/
def proj (n : Fin 3136) (e : Fin 1152) : EReal := ∑ d : Fin 384, X n d * W e d

/-- Part `s` of head `h`, as a 3136 × 48 table. -/
def part (s : Fin 3) (h : Fin 8) (n : Fin 3136) (c : Fin 48) : EReal := proj X W n (col s h c)

/-- The result, head by head. -/
def resK (n : Fin 3136) (e : Fin 384) : EReal :=
  (∑ h : Fin 8, headK (part X W 0 h) (part X W 1 h) (part X W 2 h) (T h) (fun e c => P e (pcol h c)) n e) + B e

/-- The result, all 384 projection columns in one sum. -/
def resR (n : Fin 3136) (e : Fin 384) : EReal :=
  (∑ j : Fin 384, attR (part X W 0 (hd j)) (part X W 1 (hd j)) (part X W 2 (hd j)) (T (hd j)) n (ch j) * P e j) + B e

end

end Cert.Xca

end
-- ==== Proof.KernelSteps.lean ====
/-
  The accumulator chain, step by step, and the entries of its ingredients.

  Each accumulator is the one before it plus one head's share (`Head.headV`) of that head's 48-wide slices:
  the kernel's text for head h, unfolded, is that term. Below them, what the ingredients are at an entry: the
  block with its unit batch axis dropped or restored, a 48-wide slice at column 48·h + c, the projected table
  as the sum over the 384 input columns, a head's temperature, the bias row.
-/
import proofs.«153895_j50328426774879_1_alg».proof.Proof.KernelPieces
import proofs.«153895_j50328426774879_1_alg».proof.Proof.HeadDef
import proofs.«153895_j50328426774879_1_alg».proof.Proof.Spec
import Idealize.ShloMosaic.Lib.ValueIdx
import Idealize.ShloMosaic.Lib.Pipeline.Value
import Idealize.ShloMosaic.PureOps.Ideal.Laws

set_option maxRecDepth 65536

noncomputable section

open scoped BigOperators

namespace Cert.KernelIdeal.Block

open Cert.KernelIdeal Cert.KernelIdeal.Gen Cert.KernelIdeal.Head
open Idealize.ShloMosaic Idealize.ShloMosaic.ValueIdx

/-! ## The steps -/

section Steps
variable {F : FTy → Type} [FloatOps F]

/-- Head 0: the block read back plus that head's share. -/
theorem acc1_eq (x0 : Vec F S1x3136x384 .f32) (x1 : Vec F S1152x384 .f32) (x2 : Vec F S8x1x1 .f32) (x3 : Vec F S384x384 .f32) :
    acc1 x0 x1 x2 x3 = shapeCast S1x3136x384 (addf (shapeCast S3136x384 (acc0 (F := F)) shapeCasts_S1x3136x384_S3136x384)
      (headV (extractStridedSlice S3136x48 ![0, 0] (k0_pay4 x0 x1) slices_S3136x384_o0_0_S3136x48)
        (extractStridedSlice S3136x48 ![0, 0] (k0_pay5 x0 x1) slices_S3136x384_o0_0_S3136x48)
        (extractStridedSlice S3136x48 ![0, 0] (k0_pay6 x0 x1) slices_S3136x384_o0_0_S3136x48)
        (extractAt ![0, 0, 0] (extractStridedSlice S1x1x1 ![0, 0, 0] x2 slices_S8x1x1_o0_0_0_S1x1x1) inpos_S1x1x1_p0_0_0)
        (extractStridedSlice S384x48 ![0, 0] x3 slices_S384x384_o0_0_S384x48))) shapeCasts_S3136x384_S1x3136x384 := rfl

/-- Head 1: the block read back plus that head's share. -/
theorem acc2_eq (x0 : Vec F S1x3136x384 .f32) (x1 : Vec F S1152x384 .f32) (x2 : Vec F S8x1x1 .f32) (x3 : Vec F S384x384 .f32) :
    acc2 x0 x1 x2 x3 = shapeCast S1x3136x384 (addf (shapeCast S3136x384 (acc1 x0 x1 x2 x3) shapeCasts_S1x3136x384_S3136x384)
      (headV (extractStridedSlice S3136x48 ![0, 48] (k0_pay4 x0 x1) slices_S3136x384_o0_48_S3136x48)
        (extractStridedSlice S3136x48 ![0, 48] (k0_pay5 x0 x1) slices_S3136x384_o0_48_S3136x48)
        (extractStridedSlice S3136x48 ![0, 48] (k0_pay6 x0 x1) slices_S3136x384_o0_48_S3136x48)
        (extractAt ![0, 0, 0] (extractStridedSlice S1x1x1 ![1, 0, 0] x2 slices_S8x1x1_o1_0_0_S1x1x1) inpos_S1x1x1_p0_0_0)
        (extractStridedSlice S384x48 ![0, 48] x3 slices_S384x384_o0_48_S384x48))) shapeCasts_S3136x384_S1x3136x384 := rfl

/-- Head 2: the block read back plus that head's share. -/
theorem acc3_eq (x0 : Vec F S1x3136x384 .f32) (x1 : Vec F S1152x384 .f32) (x2 : Vec F S8x1x1 .f32) (x3 : Vec F S384x384 .f32) :
    acc3 x0 x1 x2 x3 = shapeCast S1x3136x384 (addf (shapeCast S3136x384 (acc2 x0 x1 x2 x3) shapeCasts_S1x3136x384_S3136x384)
      (headV (extractStridedSlice S3136x48 ![0, 96] (k0_pay4 x0 x1) slices_S3136x384_o0_96_S3136x48)
        (extractStridedSlice S3136x48 ![0, 96] (k0_pay5 x0 x1) slices_S3136x384_o0_96_S3136x48)
        (extractStridedSlice S3136x48 ![0, 96] (k0_pay6 x0 x1) slices_S3136x384_o0_96_S3136x48)
        (extractAt ![0, 0, 0] (extractStridedSlice S1x1x1 ![2, 0, 0] x2 slices_S8x1x1_o2_0_0_S1x1x1) inpos_S1x1x1_p0_0_0)
        (extractStridedSlice S384x48 ![0, 96] x3 slices_S384x384_o0_96_S384x48))) shapeCasts_S3136x384_S1x3136x384 := rfl

/-- Head 3: the block read back plus that head's share. -/
theorem acc4_eq (x0 : Vec F S1x3136x384 .f32) (x1 : Vec F S1152x384 .f32) (x2 : Vec F S8x1x1 .f32) (x3 : Vec F S384x384 .f32) :
    acc4 x0 x1 x2 x3 = shapeCast S1x3136x384 (addf (shapeCast S3136x384 (acc3 x0 x1 x2 x3) shapeCasts_S1x3136x384_S3136x384)
      (headV (extractStridedSlice S3136x48 ![0, 144] (k0_pay4 x0 x1) slices_S3136x384_o0_144_S3136x48)
        (extractStridedSlice S3136x48 ![0, 144] (k0_pay5 x0 x1) slices_S3136x384_o0_144_S3136x48)
        (extractStridedSlice S3136x48 ![0, 144] (k0_pay6 x0 x1) slices_S3136x384_o0_144_S3136x48)
        (extractAt ![0, 0, 0] (extractStridedSlice S1x1x1 ![3, 0, 0] x2 slices_S8x1x1_o3_0_0_S1x1x1) inpos_S1x1x1_p0_0_0)
        (extractStridedSlice S384x48 ![0, 144] x3 slices_S384x384_o0_144_S384x48))) shapeCasts_S3136x384_S1x3136x384 := rfl

/-- Head 4: the block read back plus that head's share. -/
theorem acc5_eq (x0 : Vec F S1x3136x384 .f32) (x1 : Vec F S1152x384 .f32) (x2 : Vec F S8x1x1 .f32) (x3 : Vec F S384x384 .f32) :
    acc5 x0 x1 x2 x3 = shapeCast S1x3136x384 (addf (shapeCast S3136x384 (acc4 x0 x1 x2 x3) shapeCasts_S1x3136x384_S3136x384)
      (headV (extractStridedSlice S3136x48 ![0, 192] (k0_pay4 x0 x1) slices_S3136x384_o0_192_S3136x48)
        (extractStridedSlice S3136x48 ![0, 192] (k0_pay5 x0 x1) slices_S3136x384_o0_192_S3136x48)
        (extractStridedSlice S3136x48 ![0, 192] (k0_pay6 x0 x1) slices_S3136x384_o0_192_S3136x48)
        (extractAt ![0, 0, 0] (extractStridedSlice S1x1x1 ![4, 0, 0] x2 slices_S8x1x1_o4_0_0_S1x1x1) inpos_S1x1x1_p0_0_0)
        (extractStridedSlice S384x48 ![0, 192] x3 slices_S384x384_o0_192_S384x48))) shapeCasts_S3136x384_S1x3136x384 := rfl

/-- Head 5: the block read back plus that head's share. -/
theorem acc6_eq (x0 : Vec F S1x3136x384 .f32) (x1 : Vec F S1152x384 .f32) (x2 : Vec F S8x1x1 .f32) (x3 : Vec F S384x384 .f32) :
    acc6 x0 x1 x2 x3 = shapeCast S1x3136x384 (addf (shapeCast S3136x384 (acc5 x0 x1 x2 x3) shapeCasts_S1x3136x384_S3136x384)
      (headV (extractStridedSlice S3136x48 ![0, 240] (k0_pay4 x0 x1) slices_S3136x384_o0_240_S3136x48)
        (extractStridedSlice S3136x48 ![0, 240] (k0_pay5 x0 x1) slices_S3136x384_o0_240_S3136x48)
        (extractStridedSlice S3136x48 ![0, 240] (k0_pay6 x0 x1) slices_S3136x384_o0_240_S3136x48)
        (extractAt ![0, 0, 0] (extractStridedSlice S1x1x1 ![5, 0, 0] x2 slices_S8x1x1_o5_0_0_S1x1x1) inpos_S1x1x1_p0_0_0)
        (extractStridedSlice S384x48 ![0, 240] x3 slices_S384x384_o0_240_S384x48))) shapeCasts_S3136x384_S1x3136x384 := rfl

/-- Head 6: the block read back plus that head's share. -/
theorem acc7_eq (x0 : Vec F S1x3136x384 .f32) (x1 : Vec F S1152x384 .f32) (x2 : Vec F S8x1x1 .f32) (x3 : Vec F S384x384 .f32) :
    acc7 x0 x1 x2 x3 = shapeCast S1x3136x384 (addf (shapeCast S3136x384 (acc6 x0 x1 x2 x3) shapeCasts_S1x3136x384_S3136x384)
      (headV (extractStridedSlice S3136x48 ![0, 288] (k0_pay4 x0 x1) slices_S3136x384_o0_288_S3136x48)
        (extractStridedSlice S3136x48 ![0, 288] (k0_pay5 x0 x1) slices_S3136x384_o0_288_S3136x48)
        (extractStridedSlice S3136x48 ![0, 288] (k0_pay6 x0 x1) slices_S3136x384_o0_288_S3136x48)
        (extractAt ![0, 0, 0] (extractStridedSlice S1x1x1 ![6, 0, 0] x2 slices_S8x1x1_o6_0_0_S1x1x1) inpos_S1x1x1_p0_0_0)
        (extractStridedSlice S384x48 ![0, 288] x3 slices_S384x384_o0_288_S384x48))) shapeCasts_S3136x384_S1x3136x384 := rfl

/-- Head 7: the block read back plus that head's share. -/
theorem acc8_eq (x0 : Vec F S1x3136x384 .f32) (x1 : Vec F S1152x384 .f32) (x2 : Vec F S8x1x1 .f32) (x3 : Vec F S384x384 .f32) :
    acc8 x0 x1 x2 x3 = shapeCast S1x3136x384 (addf (shapeCast S3136x384 (acc7 x0 x1 x2 x3) shapeCasts_S1x3136x384_S3136x384)
      (headV (extractStridedSlice S3136x48 ![0, 336] (k0_pay4 x0 x1) slices_S3136x384_o0_336_S3136x48)
        (extractStridedSlice S3136x48 ![0, 336] (k0_pay5 x0 x1) slices_S3136x384_o0_336_S3136x48)
        (extractStridedSlice S3136x48 ![0, 336] (k0_pay6 x0 x1) slices_S3136x384_o0_336_S3136x48)
        (extractAt ![0, 0, 0] (extractStridedSlice S1x1x1 ![7, 0, 0] x2 slices_S8x1x1_o7_0_0_S1x1x1) inpos_S1x1x1_p0_0_0)
        (extractStridedSlice S384x48 ![0, 336] x3 slices_S384x384_o0_336_S384x48))) shapeCasts_S3136x384_S1x3136x384 := rfl

end Steps

/-! ## The unit batch axis -/

/-- Dropping the unit batch axis keeps entry (n, e). -/
theorem drop_batch_apply {α : Type} (v : S1x3136x384.Idx → α) (h : S1x3136x384.ShapeCasts S3136x384) (n : Fin 3136) (e : Fin 384) :
    shapeCast S3136x384 v h (ix2 n e) = v (ix3 0 n e) :=
  shapeCast_apply v h (ix2 n e) (ix3 0 n e) (by
    rw [Shape.rowMajor_val_three, Shape.rowMajor_val_two]
    show (0 * 3136 + n.val) * 384 + e.val = n.val * 384 + e.val
    omega)

/-- Restoring it likewise. -/
theorem add_batch_apply {α : Type} (v : S3136x384.Idx → α) (h : S3136x384.ShapeCasts S1x3136x384) (n : Fin 3136) (e : Fin 384) :
    shapeCast S1x3136x384 v h (ix3 0 n e) = v (ix2 n e) :=
  shapeCast_apply v h (ix3 0 n e) (ix2 n e) (by
    rw [Shape.rowMajor_val_three, Shape.rowMajor_val_two]
    show n.val * 384 + e.val = (0 * 3136 + n.val) * 384 + e.val
    omega)

/-- One step at an entry: the earlier block's entry plus the share's. -/
theorem step_apply (a : FVec Ideal S1x3136x384 .f32) (s : FVec Ideal S3136x384 .f32)
    (h₁ : S1x3136x384.ShapeCasts S3136x384) (h₂ : S3136x384.ShapeCasts S1x3136x384) (n : Fin 3136) (e : Fin 384) :
    shapeCast S1x3136x384 (addf (shapeCast S3136x384 a h₁) s) h₂ (ix3 0 n e) = a (ix3 0 n e) + s (ix2 n e) := by
  rw [add_batch_apply, addf_apply, drop_batch_apply]

/-- The block of zeros. -/
theorem acc0_apply (n : Fin 3136) (e : Fin 384) : acc0 (F := Ideal) (ix3 0 n e) = 0 := by
  unfold acc0 k0_pay7
  rw [add_batch_apply]
  exact Ideal.ofBits_zero_f32

/-! ## Slices -/

/-- A slice along the second axis, starting at column `off`, reads column `off + q`. -/
theorem slice_cols_apply {α : Type} {a b b' : Nat} (off : Nat) (v : (⟨2, ![a, b]⟩ : Shape).Idx → α)
    (hs : (⟨2, ![a, b]⟩ : Shape).Slices ![0, off] ⟨2, ![a, b']⟩) (p : Fin a) (q : Fin b') (j : Fin b) (hj : j.val = off + q.val) :
    extractStridedSlice ⟨2, ![a, b']⟩ ![0, off] v hs (ix2 p q) = v (ix2 p j) :=
  extractStridedSlice_apply ![0, off] v hs (ix2 p q) (ix2 p j) (fun x => match x with
    | ⟨0, _⟩ => by show p.val = 0 + p.val; omega
    | ⟨1, _⟩ => by show j.val = off + q.val; exact hj)

/-- Head `h`'s temperature: the one word of the one-entry slice at (h, 0, 0). -/
theorem temp_apply (x2 : FVec Ideal S8x1x1 .f32) (h : Fin 8) (hs : S8x1x1.Slices ![h.val, 0, 0] S1x1x1)
    (hp : ∀ a, (![0, 0, 0] : Fin 3 → Nat) a < S1x1x1.size a) :
    extractAt ![0, 0, 0] (extractStridedSlice S1x1x1 ![h.val, 0, 0] x2 hs) hp = x2 (ix3 h 0 0) := by
  unfold extractAt
  exact extractStridedSlice_apply ![h.val, 0, 0] x2 hs _ (ix3 h 0 0) (fun x => match x with
    | ⟨0, _⟩ => by show h.val = h.val + 0; omega
    | ⟨1, _⟩ => by show 0 = 0 + 0; rfl
    | ⟨2, _⟩ => by show 0 = 0 + 0; rfl)

/-! ## The projected table -/

theorem lhs_proj_0 (i : S3136x1152.Idx) (q : dot_S3136x384_S1152x384_S3136x1152_1_1_0_0_n_n.contr.Idx) : (dot_S3136x384_S1152x384_S3136x1152_1_1_0_0_n_n.lhsIdx i q 0).val = (i 0).val := by
  unfold DotDims.lhsIdx
  rw [dif_neg (show ¬(0 : Fin S3136x384.rank) ∈ dot_S3136x384_S1152x384_S3136x1152_1_1_0_0_n_n.lhsBatch by decide), dif_pos (show (0 : Fin S3136x384.rank) ∈ dot_S3136x384_S1152x384_S3136x1152_1_1_0_0_n_n.lhsNonContracting by decide)]
  rfl
theorem lhs_proj_1 (i : S3136x1152.Idx) (q : dot_S3136x384_S1152x384_S3136x1152_1_1_0_0_n_n.contr.Idx) : (dot_S3136x384_S1152x384_S3136x1152_1_1_0_0_n_n.lhsIdx i q 1).val = (q ⟨0, by decide⟩).val :=
  dot_S3136x384_S1152x384_S3136x1152_1_1_0_0_n_n.lhsIdx_val_of_single rfl i q
theorem rhs_proj_0 (i : S3136x1152.Idx) (q : dot_S3136x384_S1152x384_S3136x1152_1_1_0_0_n_n.contr.Idx) : (dot_S3136x384_S1152x384_S3136x1152_1_1_0_0_n_n.rhsIdx i q 0).val = (i 1).val := by
  unfold DotDims.rhsIdx
  rw [dif_neg (show ¬(0 : Fin S1152x384.rank) ∈ dot_S3136x384_S1152x384_S3136x1152_1_1_0_0_n_n.rhsBatch by decide), dif_pos (show (0 : Fin S1152x384.rank) ∈ dot_S3136x384_S1152x384_S3136x1152_1_1_0_0_n_n.rhsNonContracting by decide)]
  rfl
theorem rhs_proj_1 (i : S3136x1152.Idx) (q : dot_S3136x384_S1152x384_S3136x1152_1_1_0_0_n_n.contr.Idx) : (dot_S3136x384_S1152x384_S3136x1152_1_1_0_0_n_n.rhsIdx i q 1).val = (q ⟨0, by decide⟩).val :=
  dot_S3136x384_S1152x384_S3136x1152_1_1_0_0_n_n.rhsIdx_val_of_single rfl i q

/-- Entry (n, j) of the projected table: token n's row against weight row j, over the 384 input columns. -/
theorem proj_apply (x0 : FVec Ideal S1x3136x384 .f32) (x1 : FVec Ideal S1152x384 .f32) (n : Fin 3136) (j : Fin 1152) :
    k0_pay3 (F := Ideal) x0 x1 (ix2 n j) = Cert.Xca.proj (fun n d => x0 (ix3 0 n d)) (fun e d => x1 (ix2 e d)) n j := by
  unfold k0_pay3 Cert.Xca.proj
  show FloatOps.matmul (F := Ideal) dot_S3136x384_S1152x384_S3136x1152_1_1_0_0_n_n none _ _ (constant (F := Ideal) S3136x1152 .f32 0x00000000#32) (ix2 n j) = _
  rw [Ideal.matmul_constant_zero_apply, ← Equiv.sum_comp (contrEquiv1 dot_S3136x384_S1152x384_S3136x1152_1_1_0_0_n_n 384 rfl rfl).symm]
  refine Finset.sum_congr rfl fun k _ => ?_
  have hk := contrEquiv1_symm_val dot_S3136x384_S1152x384_S3136x1152_1_1_0_0_n_n 384 rfl rfl k
  have el : dot_S3136x384_S1152x384_S3136x1152_1_1_0_0_n_n.lhsIdx (ix2 n j) ((contrEquiv1 dot_S3136x384_S1152x384_S3136x1152_1_1_0_0_n_n 384 rfl rfl).symm k) = ix2 n k := funext fun a => Fin.ext (by
    match a with
    | ⟨0, _⟩ => exact lhs_proj_0 _ _
    | ⟨1, _⟩ => exact (lhs_proj_1 _ _).trans hk)
  have er : dot_S3136x384_S1152x384_S3136x1152_1_1_0_0_n_n.rhsIdx (ix2 n j) ((contrEquiv1 dot_S3136x384_S1152x384_S3136x1152_1_1_0_0_n_n 384 rfl rfl).symm k) = ix2 j k := funext fun a => Fin.ext (by
    match a with
    | ⟨0, _⟩ => exact rhs_proj_0 _ _
    | ⟨1, _⟩ => exact (rhs_proj_1 _ _).trans hk)
  rw [el, er]
  show shapeCast S3136x384 x0 _ (ix2 n k) * x1 (ix2 j k) = _
  rw [drop_batch_apply]

/-! ## The bias row -/

/-- The last store: the block read back plus the bias at the entry's column. -/
theorem bias_apply (a : FVec Ideal S1x3136x384 .f32) (x4 : FVec Ideal S384 .f32) (n : Fin 3136) (e : Fin 384) :
    k0_pay2 a x4 (ix3 0 n e) = a (ix3 0 n e) + x4 (ix1 e) := by
  unfold k0_pay2
  rw [step_apply]
  congr 1
  refine (broadcastTo_apply (shapeCast S1x384 x4 shapeCasts_S384_S1x384) broadcasts_S1x384_S3136x384 (ix2 n e)
    (ix2 (0 : Fin 1) e) (fun a => match a with | ⟨0, _⟩ => rfl | ⟨1, _⟩ => rfl)).trans ?_
  exact shapeCast_apply x4 _ (ix2 0 e) (ix1 e) (by
    rw [Shape.rowMajor_val_one, Shape.rowMajor_val_two]
    show e.val = 0 * 384 + e.val
    omega)

end Cert.KernelIdeal.Block

end
-- ==== Proof.KernelHead.lean ====
/-
  One head of the kernel, read at an entry of its result block.

  The head's term is a chain of vector operations over the 3136 x 48 slices of the query, key and value
  projections. Read at entry (n, e) it is the double sum
    sum over c of (sum over d of v n d * softmax(logits) c d) * pw e c,
  where logits c d is the cross-covariance of query channel c and key channel d over the tokens, divided by
  the product of the two floored column lengths and multiplied by the temperature. Each operation that is
  not entrywise (a product of matrices, a sum or a maximum along an axis, a change of shape, a broadcast)
  gets one small lemma that reads it at an index given by coordinates; the entrywise ones read through by
  definition. With those, the chain read at (n, e) is the specification's one-head formula term by term.
-/
import proofs.«153895_j50328426774879_1_alg».proof.Proof.Spec
import proofs.«153895_j50328426774879_1_alg».proof.KernelIdeal
import proofs.«153895_j50328426774879_1_alg».proof.Proof.HeadDef
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Head

open Cert.KernelIdeal Idealize.ShloMosaic Idealize.ShloMosaic.ValueIdx
open Facts₀ Facts

variable [Facts]

/-! ## The three matrix products, entry by entry

Each contracts one axis of each operand. The operand indices at a result index and a contraction index are
computed axis by axis: a kept axis reads the result index, the contracted axis reads the contraction index,
which has one coordinate; the sum over contraction indices is then the sum over that coordinate. -/

/-! ### Cross-covariance: both operands contracted along the tokens -/

theorem lhs_cov_0 (i : S48x48.Idx) (q : dot_S3136x48_S3136x48_S48x48_0_0_1_1_n_n.contr.Idx) :
    (dot_S3136x48_S3136x48_S48x48_0_0_1_1_n_n.lhsIdx i q 0).val = (q ⟨0, Nat.one_pos⟩).val :=
  dot_S3136x48_S3136x48_S48x48_0_0_1_1_n_n.lhsIdx_val_of_single rfl i q
theorem lhs_cov_1 (i : S48x48.Idx) (q : dot_S3136x48_S3136x48_S48x48_0_0_1_1_n_n.contr.Idx) :
    (dot_S3136x48_S3136x48_S48x48_0_0_1_1_n_n.lhsIdx i q 1).val = (i 0).val := by
  unfold DotDims.lhsIdx
  rw [dif_neg (show ¬(1 : Fin S3136x48.rank) ∈ dot_S3136x48_S3136x48_S48x48_0_0_1_1_n_n.lhsBatch by
        show ¬(1 : Fin S3136x48.rank) ∈ ([] : List (Fin S3136x48.rank)); decide),
    dif_pos (show (1 : Fin S3136x48.rank) ∈ dot_S3136x48_S3136x48_S48x48_0_0_1_1_n_n.lhsNonContracting by
        show (1 : Fin S3136x48.rank) ∈ [(1 : Fin S3136x48.rank)]; decide)]
  rfl
theorem rhs_cov_0 (i : S48x48.Idx) (q : dot_S3136x48_S3136x48_S48x48_0_0_1_1_n_n.contr.Idx) :
    (dot_S3136x48_S3136x48_S48x48_0_0_1_1_n_n.rhsIdx i q 0).val = (q ⟨0, Nat.one_pos⟩).val :=
  dot_S3136x48_S3136x48_S48x48_0_0_1_1_n_n.rhsIdx_val_of_single rfl i q
theorem rhs_cov_1 (i : S48x48.Idx) (q : dot_S3136x48_S3136x48_S48x48_0_0_1_1_n_n.contr.Idx) :
    (dot_S3136x48_S3136x48_S48x48_0_0_1_1_n_n.rhsIdx i q 1).val = (i 1).val := by
  unfold DotDims.rhsIdx
  rw [dif_neg (show ¬(1 : Fin S3136x48.rank) ∈ dot_S3136x48_S3136x48_S48x48_0_0_1_1_n_n.rhsBatch by
        show ¬(1 : Fin S3136x48.rank) ∈ ([] : List (Fin S3136x48.rank)); decide),
    dif_pos (show (1 : Fin S3136x48.rank) ∈ dot_S3136x48_S3136x48_S48x48_0_0_1_1_n_n.rhsNonContracting by
        show (1 : Fin S3136x48.rank) ∈ [(1 : Fin S3136x48.rank)]; decide)]
  rfl

/-- Entry (c, d) of the cross-covariance: the sum over the tokens of l(n, c) * r(n, d). -/
theorem cov_apply (l : FVec Ideal S3136x48 .bf16) (r : FVec Ideal S3136x48 .bf16) (c : Fin 48) (d : Fin 48) :
    matmul dot_S3136x48_S3136x48_S48x48_0_0_1_1_n_n none l r (constant (F := Ideal) S48x48 .f32 0x00000000#32) (ix2 c d)
      = ∑ n : Fin 3136, l (ix2 n c) * r (ix2 n d) := by
  simp only [matmul]
  rw [Ideal.matmul_constant_zero_apply, ← Equiv.sum_comp (contrEquiv1 dot_S3136x48_S3136x48_S48x48_0_0_1_1_n_n 3136 rfl rfl).symm]
  refine Finset.sum_congr rfl fun n _ => ?_
  have hk := contrEquiv1_symm_val dot_S3136x48_S3136x48_S48x48_0_0_1_1_n_n 3136 rfl rfl n
  have el : dot_S3136x48_S3136x48_S48x48_0_0_1_1_n_n.lhsIdx (ix2 c d) ((contrEquiv1 dot_S3136x48_S3136x48_S48x48_0_0_1_1_n_n 3136 rfl rfl).symm n) = ix2 n c :=
    funext fun a => Fin.ext (by
      match a with
      | ⟨0, _⟩ => exact (lhs_cov_0 _ _).trans hk
      | ⟨1, _⟩ => exact lhs_cov_1 _ _)
  have er : dot_S3136x48_S3136x48_S48x48_0_0_1_1_n_n.rhsIdx (ix2 c d) ((contrEquiv1 dot_S3136x48_S3136x48_S48x48_0_0_1_1_n_n 3136 rfl rfl).symm n) = ix2 n d :=
    funext fun a => Fin.ext (by
      match a with
      | ⟨0, _⟩ => exact (rhs_cov_0 _ _).trans hk
      | ⟨1, _⟩ => exact rhs_cov_1 _ _)
  rw [el, er]

/-! ### Values weighted by the rows of a 48 x 48 table: both operands contracted along their second axis -/

theorem lhs_att_0 (i : S3136x48.Idx) (q : dot_S3136x48_S48x48_S3136x48_1_1_0_0_n_n.contr.Idx) :
    (dot_S3136x48_S48x48_S3136x48_1_1_0_0_n_n.lhsIdx i q 0).val = (i 0).val := by
  unfold DotDims.lhsIdx
  rw [dif_neg (show ¬(0 : Fin S3136x48.rank) ∈ dot_S3136x48_S48x48_S3136x48_1_1_0_0_n_n.lhsBatch by
        show ¬(0 : Fin S3136x48.rank) ∈ ([] : List (Fin S3136x48.rank)); decide),
    dif_pos (show (0 : Fin S3136x48.rank) ∈ dot_S3136x48_S48x48_S3136x48_1_1_0_0_n_n.lhsNonContracting by
        show (0 : Fin S3136x48.rank) ∈ [(0 : Fin S3136x48.rank)]; decide)]
  rfl
theorem lhs_att_1 (i : S3136x48.Idx) (q : dot_S3136x48_S48x48_S3136x48_1_1_0_0_n_n.contr.Idx) :
    (dot_S3136x48_S48x48_S3136x48_1_1_0_0_n_n.lhsIdx i q 1).val = (q ⟨0, Nat.one_pos⟩).val :=
  dot_S3136x48_S48x48_S3136x48_1_1_0_0_n_n.lhsIdx_val_of_single rfl i q
theorem rhs_att_0 (i : S3136x48.Idx) (q : dot_S3136x48_S48x48_S3136x48_1_1_0_0_n_n.contr.Idx) :
    (dot_S3136x48_S48x48_S3136x48_1_1_0_0_n_n.rhsIdx i q 0).val = (i 1).val := by
  unfold DotDims.rhsIdx
  rw [dif_neg (show ¬(0 : Fin S48x48.rank) ∈ dot_S3136x48_S48x48_S3136x48_1_1_0_0_n_n.rhsBatch by
        show ¬(0 : Fin S48x48.rank) ∈ ([] : List (Fin S48x48.rank)); decide),
    dif_pos (show (0 : Fin S48x48.rank) ∈ dot_S3136x48_S48x48_S3136x48_1_1_0_0_n_n.rhsNonContracting by
        show (0 : Fin S48x48.rank) ∈ [(0 : Fin S48x48.rank)]; decide)]
  rfl
theorem rhs_att_1 (i : S3136x48.Idx) (q : dot_S3136x48_S48x48_S3136x48_1_1_0_0_n_n.contr.Idx) :
    (dot_S3136x48_S48x48_S3136x48_1_1_0_0_n_n.rhsIdx i q 1).val = (q ⟨0, Nat.one_pos⟩).val :=
  dot_S3136x48_S48x48_S3136x48_1_1_0_0_n_n.rhsIdx_val_of_single rfl i q

/-- Entry (n, c) of the weighted values: the sum over d of l(n, d) * r(c, d). -/
theorem att_apply (l : FVec Ideal S3136x48 .bf16) (r : FVec Ideal S48x48 .bf16) (n : Fin 3136) (c : Fin 48) :
    matmul dot_S3136x48_S48x48_S3136x48_1_1_0_0_n_n none l r (constant (F := Ideal) S3136x48 .f32 0x00000000#32) (ix2 n c)
      = ∑ d : Fin 48, l (ix2 n d) * r (ix2 c d) := by
  simp only [matmul]
  rw [Ideal.matmul_constant_zero_apply, ← Equiv.sum_comp (contrEquiv1 dot_S3136x48_S48x48_S3136x48_1_1_0_0_n_n 48 rfl rfl).symm]
  refine Finset.sum_congr rfl fun d _ => ?_
  have hk := contrEquiv1_symm_val dot_S3136x48_S48x48_S3136x48_1_1_0_0_n_n 48 rfl rfl d
  have el : dot_S3136x48_S48x48_S3136x48_1_1_0_0_n_n.lhsIdx (ix2 n c) ((contrEquiv1 dot_S3136x48_S48x48_S3136x48_1_1_0_0_n_n 48 rfl rfl).symm d) = ix2 n d :=
    funext fun a => Fin.ext (by
      match a with
      | ⟨0, _⟩ => exact lhs_att_0 _ _
      | ⟨1, _⟩ => exact (lhs_att_1 _ _).trans hk)
  have er : dot_S3136x48_S48x48_S3136x48_1_1_0_0_n_n.rhsIdx (ix2 n c) ((contrEquiv1 dot_S3136x48_S48x48_S3136x48_1_1_0_0_n_n 48 rfl rfl).symm d) = ix2 c d :=
    funext fun a => Fin.ext (by
      match a with
      | ⟨0, _⟩ => exact rhs_att_0 _ _
      | ⟨1, _⟩ => exact (rhs_att_1 _ _).trans hk)
  rw [el, er]

/-! ### Projection by 48 columns: both operands contracted along their second axis -/

theorem lhs_prj_0 (i : S3136x384.Idx) (q : dot_S3136x48_S384x48_S3136x384_1_1_0_0_n_n.contr.Idx) :
    (dot_S3136x48_S384x48_S3136x384_1_1_0_0_n_n.lhsIdx i q 0).val = (i 0).val := by
  unfold DotDims.lhsIdx
  rw [dif_neg (show ¬(0 : Fin S3136x48.rank) ∈ dot_S3136x48_S384x48_S3136x384_1_1_0_0_n_n.lhsBatch by
        show ¬(0 : Fin S3136x48.rank) ∈ ([] : List (Fin S3136x48.rank)); decide),
    dif_pos (show (0 : Fin S3136x48.rank) ∈ dot_S3136x48_S384x48_S3136x384_1_1_0_0_n_n.lhsNonContracting by
        show (0 : Fin S3136x48.rank) ∈ [(0 : Fin S3136x48.rank)]; decide)]
  rfl
theorem lhs_prj_1 (i : S3136x384.Idx) (q : dot_S3136x48_S384x48_S3136x384_1_1_0_0_n_n.contr.Idx) :
    (dot_S3136x48_S384x48_S3136x384_1_1_0_0_n_n.lhsIdx i q 1).val = (q ⟨0, Nat.one_pos⟩).val :=
  dot_S3136x48_S384x48_S3136x384_1_1_0_0_n_n.lhsIdx_val_of_single rfl i q
theorem rhs_prj_0 (i : S3136x384.Idx) (q : dot_S3136x48_S384x48_S3136x384_1_1_0_0_n_n.contr.Idx) :
    (dot_S3136x48_S384x48_S3136x384_1_1_0_0_n_n.rhsIdx i q 0).val = (i 1).val := by
  unfold DotDims.rhsIdx
  rw [dif_neg (show ¬(0 : Fin S384x48.rank) ∈ dot_S3136x48_S384x48_S3136x384_1_1_0_0_n_n.rhsBatch by
        show ¬(0 : Fin S384x48.rank) ∈ ([] : List (Fin S384x48.rank)); decide),
    dif_pos (show (0 : Fin S384x48.rank) ∈ dot_S3136x48_S384x48_S3136x384_1_1_0_0_n_n.rhsNonContracting by
        show (0 : Fin S384x48.rank) ∈ [(0 : Fin S384x48.rank)]; decide)]
  rfl
theorem rhs_prj_1 (i : S3136x384.Idx) (q : dot_S3136x48_S384x48_S3136x384_1_1_0_0_n_n.contr.Idx) :
    (dot_S3136x48_S384x48_S3136x384_1_1_0_0_n_n.rhsIdx i q 1).val = (q ⟨0, Nat.one_pos⟩).val :=
  dot_S3136x48_S384x48_S3136x384_1_1_0_0_n_n.rhsIdx_val_of_single rfl i q

/-- Entry (n, e) of the projection: the sum over c of l(n, c) * r(e, c). -/
theorem prj_apply (l : FVec Ideal S3136x48 .bf16) (r : FVec Ideal S384x48 .bf16) (n : Fin 3136) (e : Fin 384) :
    matmul dot_S3136x48_S384x48_S3136x384_1_1_0_0_n_n none l r (constant (F := Ideal) S3136x384 .f32 0x00000000#32) (ix2 n e)
      = ∑ c : Fin 48, l (ix2 n c) * r (ix2 e c) := by
  simp only [matmul]
  rw [Ideal.matmul_constant_zero_apply, ← Equiv.sum_comp (contrEquiv1 dot_S3136x48_S384x48_S3136x384_1_1_0_0_n_n 48 rfl rfl).symm]
  refine Finset.sum_congr rfl fun c _ => ?_
  have hk := contrEquiv1_symm_val dot_S3136x48_S384x48_S3136x384_1_1_0_0_n_n 48 rfl rfl c
  have el : dot_S3136x48_S384x48_S3136x384_1_1_0_0_n_n.lhsIdx (ix2 n e) ((contrEquiv1 dot_S3136x48_S384x48_S3136x384_1_1_0_0_n_n 48 rfl rfl).symm c) = ix2 n c :=
    funext fun a => Fin.ext (by
      match a with
      | ⟨0, _⟩ => exact lhs_prj_0 _ _
      | ⟨1, _⟩ => exact (lhs_prj_1 _ _).trans hk)
  have er : dot_S3136x48_S384x48_S3136x384_1_1_0_0_n_n.rhsIdx (ix2 n e) ((contrEquiv1 dot_S3136x48_S384x48_S3136x384_1_1_0_0_n_n 48 rfl rfl).symm c) = ix2 e c :=
    funext fun a => Fin.ext (by
      match a with
      | ⟨0, _⟩ => exact rhs_prj_0 _ _
      | ⟨1, _⟩ => exact (rhs_prj_1 _ _).trans hk)
  rw [el, er]

/-! ## Sums and maxima along one axis, read at the kept coordinate -/

/-- The sum over the tokens, at channel `c`. -/
theorem colsum_apply (x : FVec Ideal S3136x48 .f32) (c : Fin 48) :
    multiReduction (F := Ideal) .add [0] S48 x 0x00000000#32 reduces_S3136x48_S48 (.inl rfl) rfl (ix1 c)
      = ∑ n : Fin 3136, x (ix2 n c) := by
  refine (Ideal.multiReduction_add_single x 0x00000000#32 reduces_S3136x48_S48 (.inl rfl) rfl (ix1 c)).trans ?_
  show ∑ n : Fin 3136, x (reduces_S3136x48_S48.lift (ix1 c) n) = _
  refine Finset.sum_congr rfl fun n _ => congrArg x (funext fun a => Fin.ext ?_)
  match a with
  | ⟨0, _⟩ => rfl
  | ⟨1, _⟩ => rfl

/-- The sum along row `c` of a 48 x 48 table. -/
theorem rowsum_apply (x : FVec Ideal S48x48 .f32) (c : Fin 48) :
    multiReduction (F := Ideal) .add [1] S48 x 0x00000000#32 reduces_S48x48_S48 (.inl rfl) rfl (ix1 c)
      = ∑ d : Fin 48, x (ix2 c d) := by
  refine (Ideal.multiReduction_add_single x 0x00000000#32 reduces_S48x48_S48 (.inl rfl) rfl (ix1 c)).trans ?_
  show ∑ d : Fin 48, x (reduces_S48x48_S48.lift (ix1 c) d) = _
  refine Finset.sum_congr rfl fun d _ => congrArg x (funext fun a => Fin.ext ?_)
  match a with
  | ⟨0, _⟩ => rfl
  | ⟨1, _⟩ => rfl

/-- The maximum along row `c` of a 48 x 48 table: the fold of `max` over the row from the starting value. -/
theorem rowmax_apply (x : FVec Ideal S48x48 .f32) (c : Fin 48) :
    multiReduction (F := Ideal) .maximumf [1] S48 x 0xFF800000#32 reduces_S48x48_S48 (.inl rfl) rfl (ix1 c)
      = (Finset.univ : Finset (Fin 48)).fold max Cert.Xca.ninf (fun d => x (ix2 c d)) := by
  refine (Ideal.multiReduction_maximumf_single x 0xFF800000#32 reduces_S48x48_S48 (.inl rfl) rfl (ix1 c)).trans ?_
  have e : (x ∘ reduces_S48x48_S48.lift (ix1 c)) = fun d : Fin 48 => x (ix2 c d) :=
    funext fun d => congrArg x (funext fun a => Fin.ext (by
      match a with
      | ⟨0, _⟩ => rfl
      | ⟨1, _⟩ => rfl))
  show (Finset.univ : Finset (Fin 48)).fold max (Ideal.ofBits .f32 0xFF800000#32) (x ∘ reduces_S48x48_S48.lift (ix1 c)) = _
  rw [e]
  rfl

/-! ## Changes of shape and broadcasts, read at coordinates -/

section Layout
variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 48 values as a row. -/
theorem row_apply (x : S48.Idx → α) (u : Fin 1) (c : Fin 48) :
    shapeCast S1x48 x shapeCasts_S48_S1x48 (ix2 u c) = x (ix1 c) :=
  shapeCast_a_1a_apply x shapeCasts_S48_S1x48 u c

/-- The 48 values as a column. -/
theorem col_apply (x : S48.Idx → α) (c : Fin 48) (u : Fin 1) :
    shapeCast S48x1 x shapeCasts_S48_S48x1 (ix2 c u) = x (ix1 c) :=
  shapeCast_a_a1_apply x shapeCasts_S48_S48x1 c u

/-- A row turned into a column. -/
theorem rowT_apply (x : S1x48.Idx → α) (c : Fin 48) (u : Fin 1) :
    transpose S48x1 [1, 0] x transposes_S1x48_p1_0_S48x1 (ix2 c u) = x (ix2 u c) :=
  transpose_ix2_apply x transposes_S1x48_p1_0_S48x1 c u

/-- A column repeated along the rows. -/
theorem colB_apply (x : S48x1.Idx → α) (c d : Fin 48) :
    broadcastTo S48x48 x broadcasts_S48x1_S48x48 (ix2 c d) = x (ix2 c (0 : Fin 1)) :=
  broadcastTo_a1_ab_apply x broadcasts_S48x1_S48x48 c d

/-- A row repeated along the columns. -/
theorem rowB_apply (x : S1x48.Idx → α) (c d : Fin 48) :
    broadcastTo S48x48 x broadcasts_S1x48_S48x48 (ix2 c d) = x (ix2 (0 : Fin 1) d) :=
  broadcastTo_1b_ab_apply x broadcasts_S1x48_S48x48 c d

end Layout

/-- The square root, entry by entry. -/
theorem sqrt_at {s : Shape} {φ : FTy} (a : FVec Ideal s φ) (i : s.Idx) : sqrt a i = Ideal.sqrt (a i) := rfl
/-- The exponential, entry by entry. -/
theorem exp_at {s : Shape} {φ : FTy} (a : FVec Ideal s φ) (i : s.Idx) : exp a i = Ideal.exp (a i) := rfl

/-! ## The chain in three named pieces

The head's term is cut at three places: the row of floored column lengths, the table of logits, and the
softmax of a table. Each piece is the kernel's own operations; put back together they are the head's term
by unfolding. -/

/-- The floored lengths of the 48 columns of a 3136 x 48 table, as a row: squares summed over the tokens,
    the square root, floored by the constant. -/
def lenV (x : FVec Ideal S3136x48 .bf16) : FVec Ideal S1x48 .f32 :=
  maximumf
    (sqrt (shapeCast S1x48
      (multiReduction .add [0] S48 (mulf (extf .f32 x bitsLt_bf16_f32) (extf .f32 x bitsLt_bf16_f32)) 0x00000000#32
        reduces_S3136x48_S48 (.inl rfl) rfl) shapeCasts_S48_S1x48))
    (broadcast S1x48 (Scalar.ofBits (F := Ideal) .f32 0x2B8CBCCC#32))

/-- The logits: the cross-covariance divided by the outer product of the two rows of lengths, times the
    temperature. -/
def logitsV (qh kh : FVec Ideal S3136x48 .bf16) (t : Ideal .f32) : FVec Ideal S48x48 .f32 :=
  mulf
    (divf (matmul dot_S3136x48_S3136x48_S48x48_0_0_1_1_n_n none qh kh (constant S48x48 .f32 0x00000000#32))
      (mulf
        (broadcastTo S48x48 (transpose S48x1 [1, 0] (lenV qh) transposes_S1x48_p1_0_S48x1) broadcasts_S48x1_S48x48)
        (broadcastTo S48x48 (lenV kh) broadcasts_S1x48_S48x48)))
    (broadcast S48x48 t)

/-- Each row's maximum, floored once more by the starting value, repeated along the row. -/
def rowmaxV (L : FVec Ideal S48x48 .f32) : FVec Ideal S48x48 .f32 :=
  broadcastTo S48x48
    (shapeCast S48x1
      (maximumf (broadcast S48 (Scalar.ofBits (F := Ideal) .f32 0xFF800000#32))
        (multiReduction .maximumf [1] S48 L 0xFF800000#32 reduces_S48x48_S48 (.inl rfl) rfl))
      shapeCasts_S48_S48x1)
    broadcasts_S48x1_S48x48

/-- The exponentials of a table less its row maxima. -/
def expV (L : FVec Ideal S48x48 .f32) : FVec Ideal S48x48 .f32 := exp (subf L (rowmaxV L))

/-- Softmax along the rows. -/
def softV (L : FVec Ideal S48x48 .f32) : FVec Ideal S48x48 .f32 :=
  divf (expV L)
    (broadcastTo S48x48
      (shapeCast S48x1 (multiReduction .add [1] S48 (expV L) 0x00000000#32 reduces_S48x48_S48 (.inl rfl) rfl)
        shapeCasts_S48_S48x1)
      broadcasts_S48x1_S48x48)

/-- The head's term is the two last products over the softmax of the logits. -/
theorem headV_eq (qh kh vh : FVec Ideal S3136x48 .bf16) (t : Ideal .f32) (pw : FVec Ideal S384x48 .f32) :
    headV qh kh vh t pw
      = matmul dot_S3136x48_S384x48_S3136x384_1_1_0_0_n_n none
          (truncf .bf16
            (matmul dot_S3136x48_S48x48_S3136x48_1_1_0_0_n_n none vh
              (truncf .bf16 (softV (logitsV qh kh t)) bitsLt_bf16_f32)
              (constant S3136x48 .f32 0x00000000#32))
            bitsLt_bf16_f32)
          (truncf .bf16 pw bitsLt_bf16_f32)
          (constant S3136x384 .f32 0x00000000#32) := rfl

/-! ## Each piece read at coordinates -/

/-- The kernel's row of lengths is the specification's floored column length. -/
theorem lenV_apply (x : FVec Ideal S3136x48 .bf16) (u : Fin 1) (c : Fin 48) :
    lenV x (ix2 u c) = Cert.Xca.len (fun n c => x (ix2 n c)) c := by
  unfold lenV Cert.Xca.len
  rw [maximumf_apply, broadcast_apply, sqrt_at, row_apply, colsum_apply]
  simp only [mulf_apply, extf_apply]
  rfl

/-- The kernel's logits are the specification's. -/
theorem logitsV_apply (qh kh : FVec Ideal S3136x48 .bf16) (t : Ideal .f32) (c d : Fin 48) :
    logitsV qh kh t (ix2 c d)
      = Cert.Xca.logitsK (fun n c => qh (ix2 n c)) (fun n c => kh (ix2 n c)) t c d := by
  unfold logitsV Cert.Xca.logitsK
  rw [mulf_apply, broadcast_apply, divf_apply, cov_apply, mulf_apply, colB_apply, rowT_apply, rowB_apply,
    lenV_apply, lenV_apply]

/-- The repeated row maximum is the specification's row maximum. -/
theorem rowmaxV_apply (L : FVec Ideal S48x48 .f32) (c d : Fin 48) :
    rowmaxV L (ix2 c d) = Cert.Xca.rowmax (fun c d => L (ix2 c d)) c := by
  unfold rowmaxV Cert.Xca.rowmax
  rw [colB_apply, col_apply, maximumf_apply, broadcast_apply, rowmax_apply]
  rfl

theorem expV_apply (L : FVec Ideal S48x48 .f32) (c d : Fin 48) :
    expV L (ix2 c d) = Ideal.exp (L (ix2 c d) - Cert.Xca.rowmax (fun c d => L (ix2 c d)) c) := by
  unfold expV
  rw [exp_at, subf_apply, rowmaxV_apply]

/-- The kernel's softmax is the specification's. -/
theorem softV_apply (L : FVec Ideal S48x48 .f32) (c d : Fin 48) :
    softV L (ix2 c d) = Cert.Xca.soft (fun c d => L (ix2 c d)) c d := by
  unfold softV Cert.Xca.soft
  rw [divf_apply, colB_apply, col_apply, rowsum_apply, expV_apply]
  simp only [expV_apply]

/-! ## The head at an entry -/

/-- One head of the kernel at entry (n, e) is the specification's one-head formula over the head's tables. -/
theorem headV_apply (qh kh vh : FVec Ideal S3136x48 .bf16) (t : Ideal .f32) (pw : FVec Ideal S384x48 .f32) (n : Fin 3136) (e : Fin 384) :
    headV qh kh vh t pw (ix2 n e) = Cert.Xca.headK (fun n c => qh (ix2 n c)) (fun n c => kh (ix2 n c)) (fun n c => vh (ix2 n c)) t (fun e c => pw (ix2 e c)) n e := by
  rw [headV_eq, prj_apply]
  unfold Cert.Xca.headK
  refine Finset.sum_congr rfl fun c _ => ?_
  rw [truncf_apply, truncf_apply, att_apply]
  refine congrArg (· * pw (ix2 e c)) (Finset.sum_congr rfl fun d _ => ?_)
  rw [truncf_apply, softV_apply]
  refine congrArg (fun L => vh (ix2 n d) * Cert.Xca.soft L c d) ?_
  funext c d
  exact logitsV_apply qh kh t c d

end Cert.KernelIdeal.Head

end
-- ==== Proof.KernelBlock.lean ====
/-
  The output block at an entry (n, e): the sum over the eight heads of the head's share, plus the bias.

  A head's slices are its parts of the projected table: the 48-wide slice of the query, key or value third at
  column 48·h + c is column part·384 + 48·h + c of the projection. So the accumulator chain, read at an entry,
  adds the eight shares in order from zero, and the last store adds the bias.
-/
import proofs.«153895_j50328426774879_1_alg».proof.Proof.KernelSteps
import proofs.«153895_j50328426774879_1_alg».proof.Proof.KernelHead

set_option maxRecDepth 65536

noncomputable section

open scoped BigOperators

namespace Cert.KernelIdeal.Block

open Cert.KernelIdeal Cert.KernelIdeal.Gen Cert.KernelIdeal.Head
open Idealize.ShloMosaic Idealize.ShloMosaic.ValueIdx

/-! ## The three thirds of the projected table -/

theorem pay4_apply (x0 : FVec Ideal S1x3136x384 .f32) (x1 : FVec Ideal S1152x384 .f32) (n : Fin 3136) (j : Fin 384) (j' : Fin 1152)
    (hj : j'.val = 0 + j.val) : k0_pay4 (F := Ideal) x0 x1 (ix2 n j) = Cert.Xca.proj (fun n d => x0 (ix3 0 n d)) (fun e d => x1 (ix2 e d)) n j' := by
  unfold k0_pay4
  rw [slice_cols_apply 0 _ _ n j j' hj, proj_apply]

theorem pay5_apply (x0 : FVec Ideal S1x3136x384 .f32) (x1 : FVec Ideal S1152x384 .f32) (n : Fin 3136) (j : Fin 384) (j' : Fin 1152)
    (hj : j'.val = 384 + j.val) : k0_pay5 (F := Ideal) x0 x1 (ix2 n j) = Cert.Xca.proj (fun n d => x0 (ix3 0 n d)) (fun e d => x1 (ix2 e d)) n j' := by
  unfold k0_pay5
  rw [slice_cols_apply 384 _ _ n j j' hj, proj_apply]

theorem pay6_apply (x0 : FVec Ideal S1x3136x384 .f32) (x1 : FVec Ideal S1152x384 .f32) (n : Fin 3136) (j : Fin 384) (j' : Fin 1152)
    (hj : j'.val = 768 + j.val) : k0_pay6 (F := Ideal) x0 x1 (ix2 n j) = Cert.Xca.proj (fun n d => x0 (ix3 0 n d)) (fun e d => x1 (ix2 e d)) n j' := by
  unfold k0_pay6
  rw [slice_cols_apply 768 _ _ n j j' hj, proj_apply]

/-- The 48-wide slice at column `off = 48·h` of third `s` (which starts at column `base = 384·s` of the projection)
    is part `s` of head `h`. -/
theorem part_slice (x0 : FVec Ideal S1x3136x384 .f32) (x1 : FVec Ideal S1152x384 .f32) (s : Fin 3) (h : Fin 8) (off base : Nat)
    (hoff : off = h.val * 48) (hbase : base = s.val * 384) (v : FVec Ideal S3136x384 .bf16)
    (hv : ∀ (n : Fin 3136) (j : Fin 384) (j' : Fin 1152), j'.val = base + j.val → v (ix2 n j) = Cert.Xca.proj (fun n d => x0 (ix3 0 n d)) (fun e d => x1 (ix2 e d)) n j')
    (hs : S3136x384.Slices ![0, off] S3136x48) (n : Fin 3136) (c : Fin 48) :
    extractStridedSlice S3136x48 ![0, off] v hs (ix2 n c) = Cert.Xca.part (fun n d => x0 (ix3 0 n d)) (fun e d => x1 (ix2 e d)) s h n c := by
  have hh := h.isLt; have hc := c.isLt; have hs3 := s.isLt
  rw [slice_cols_apply off v hs n c ⟨off + c.val, by omega⟩ rfl]
  exact hv n _ (Cert.Xca.col s h c) (by show s.val * 384 + h.val * 48 + c.val = base + (off + c.val); omega)

/-- The 48 columns of the output projection that head `h` meets. -/
theorem pw_slice (x3 : FVec Ideal S384x384 .f32) (h : Fin 8) (off : Nat) (hoff : off = h.val * 48)
    (hs : S384x384.Slices ![0, off] S384x48) (e : Fin 384) (c : Fin 48) :
    extractStridedSlice S384x48 ![0, off] x3 hs (ix2 e c) = x3 (ix2 e (Cert.Xca.pcol h c)) :=
  slice_cols_apply off x3 hs e c (Cert.Xca.pcol h c) (by show h.val * 48 + c.val = off + c.val; omega)

/-- Head `k`'s temperature, the head given by its number. -/
theorem temp_at (x2 : FVec Ideal S8x1x1 .f32) (k : Nat) (hk : k < 8) (hs : S8x1x1.Slices ![k, 0, 0] S1x1x1)
    (hp : ∀ a, (![0, 0, 0] : Fin 3 → Nat) a < S1x1x1.size a) :
    extractAt ![0, 0, 0] (extractStridedSlice S1x1x1 ![k, 0, 0] x2 hs) hp = x2 (ix3 (⟨k, hk⟩ : Fin 8) 0 0) :=
  temp_apply x2 ⟨k, hk⟩ hs hp

/-! ## The eight shares -/

/-- Head 0's share at an entry. -/
theorem share0 (x0 : FVec Ideal S1x3136x384 .f32) (x1 : FVec Ideal S1152x384 .f32) (x2 : FVec Ideal S8x1x1 .f32)
    (x3 : FVec Ideal S384x384 .f32) (n : Fin 3136) (e : Fin 384) :
    headV (extractStridedSlice S3136x48 ![0, 0] (k0_pay4 (F := Ideal) x0 x1) slices_S3136x384_o0_0_S3136x48)
      (extractStridedSlice S3136x48 ![0, 0] (k0_pay5 (F := Ideal) x0 x1) slices_S3136x384_o0_0_S3136x48)
      (extractStridedSlice S3136x48 ![0, 0] (k0_pay6 (F := Ideal) x0 x1) slices_S3136x384_o0_0_S3136x48)
      (extractAt ![0, 0, 0] (extractStridedSlice S1x1x1 ![0, 0, 0] x2 slices_S8x1x1_o0_0_0_S1x1x1) inpos_S1x1x1_p0_0_0)
      (extractStridedSlice S384x48 ![0, 0] x3 slices_S384x384_o0_0_S384x48) (ix2 n e)
      = Cert.Xca.headK (Cert.Xca.part (fun n d => x0 (ix3 0 n d)) (fun e d => x1 (ix2 e d)) 0 0) (Cert.Xca.part (fun n d => x0 (ix3 0 n d)) (fun e d => x1 (ix2 e d)) 1 0) (Cert.Xca.part (fun n d => x0 (ix3 0 n d)) (fun e d => x1 (ix2 e d)) 2 0)
          (x2 (ix3 0 0 0)) (fun e c => x3 (ix2 e (Cert.Xca.pcol 0 c))) n e := by
  rw [headV_apply, temp_at x2 0 (by decide)]
  simp only [part_slice x0 x1 0 0 0 0 rfl rfl (k0_pay4 (F := Ideal) x0 x1) (pay4_apply x0 x1),
    part_slice x0 x1 1 0 0 384 rfl rfl (k0_pay5 (F := Ideal) x0 x1) (pay5_apply x0 x1),
    part_slice x0 x1 2 0 0 768 rfl rfl (k0_pay6 (F := Ideal) x0 x1) (pay6_apply x0 x1),
    pw_slice x3 0 0 rfl]
  rfl

/-- Head 1's share at an entry. -/
theorem share1 (x0 : FVec Ideal S1x3136x384 .f32) (x1 : FVec Ideal S1152x384 .f32) (x2 : FVec Ideal S8x1x1 .f32)
    (x3 : FVec Ideal S384x384 .f32) (n : Fin 3136) (e : Fin 384) :
    headV (extractStridedSlice S3136x48 ![0, 48] (k0_pay4 (F := Ideal) x0 x1) slices_S3136x384_o0_48_S3136x48)
      (extractStridedSlice S3136x48 ![0, 48] (k0_pay5 (F := Ideal) x0 x1) slices_S3136x384_o0_48_S3136x48)
      (extractStridedSlice S3136x48 ![0, 48] (k0_pay6 (F := Ideal) x0 x1) slices_S3136x384_o0_48_S3136x48)
      (extractAt ![0, 0, 0] (extractStridedSlice S1x1x1 ![1, 0, 0] x2 slices_S8x1x1_o1_0_0_S1x1x1) inpos_S1x1x1_p0_0_0)
      (extractStridedSlice S384x48 ![0, 48] x3 slices_S384x384_o0_48_S384x48) (ix2 n e)
      = Cert.Xca.headK (Cert.Xca.part (fun n d => x0 (ix3 0 n d)) (fun e d => x1 (ix2 e d)) 0 1) (Cert.Xca.part (fun n d => x0 (ix3 0 n d)) (fun e d => x1 (ix2 e d)) 1 1) (Cert.Xca.part (fun n d => x0 (ix3 0 n d)) (fun e d => x1 (ix2 e d)) 2 1)
          (x2 (ix3 1 0 0)) (fun e c => x3 (ix2 e (Cert.Xca.pcol 1 c))) n e := by
  rw [headV_apply, temp_at x2 1 (by decide)]
  simp only [part_slice x0 x1 0 1 48 0 rfl rfl (k0_pay4 (F := Ideal) x0 x1) (pay4_apply x0 x1),
    part_slice x0 x1 1 1 48 384 rfl rfl (k0_pay5 (F := Ideal) x0 x1) (pay5_apply x0 x1),
    part_slice x0 x1 2 1 48 768 rfl rfl (k0_pay6 (F := Ideal) x0 x1) (pay6_apply x0 x1),
    pw_slice x3 1 48 rfl]
  rfl

/-- Head 2's share at an entry. -/
theorem share2 (x0 : FVec Ideal S1x3136x384 .f32) (x1 : FVec Ideal S1152x384 .f32) (x2 : FVec Ideal S8x1x1 .f32)
    (x3 : FVec Ideal S384x384 .f32) (n : Fin 3136) (e : Fin 384) :
    headV (extractStridedSlice S3136x48 ![0, 96] (k0_pay4 (F := Ideal) x0 x1) slices_S3136x384_o0_96_S3136x48)
      (extractStridedSlice S3136x48 ![0, 96] (k0_pay5 (F := Ideal) x0 x1) slices_S3136x384_o0_96_S3136x48)
      (extractStridedSlice S3136x48 ![0, 96] (k0_pay6 (F := Ideal) x0 x1) slices_S3136x384_o0_96_S3136x48)
      (extractAt ![0, 0, 0] (extractStridedSlice S1x1x1 ![2, 0, 0] x2 slices_S8x1x1_o2_0_0_S1x1x1) inpos_S1x1x1_p0_0_0)
      (extractStridedSlice S384x48 ![0, 96] x3 slices_S384x384_o0_96_S384x48) (ix2 n e)
      = Cert.Xca.headK (Cert.Xca.part (fun n d => x0 (ix3 0 n d)) (fun e d => x1 (ix2 e d)) 0 2) (Cert.Xca.part (fun n d => x0 (ix3 0 n d)) (fun e d => x1 (ix2 e d)) 1 2) (Cert.Xca.part (fun n d => x0 (ix3 0 n d)) (fun e d => x1 (ix2 e d)) 2 2)
          (x2 (ix3 2 0 0)) (fun e c => x3 (ix2 e (Cert.Xca.pcol 2 c))) n e := by
  rw [headV_apply, temp_at x2 2 (by decide)]
  simp only [part_slice x0 x1 0 2 96 0 rfl rfl (k0_pay4 (F := Ideal) x0 x1) (pay4_apply x0 x1),
    part_slice x0 x1 1 2 96 384 rfl rfl (k0_pay5 (F := Ideal) x0 x1) (pay5_apply x0 x1),
    part_slice x0 x1 2 2 96 768 rfl rfl (k0_pay6 (F := Ideal) x0 x1) (pay6_apply x0 x1),
    pw_slice x3 2 96 rfl]
  rfl

/-- Head 3's share at an entry. -/
theorem share3 (x0 : FVec Ideal S1x3136x384 .f32) (x1 : FVec Ideal S1152x384 .f32) (x2 : FVec Ideal S8x1x1 .f32)
    (x3 : FVec Ideal S384x384 .f32) (n : Fin 3136) (e : Fin 384) :
    headV (extractStridedSlice S3136x48 ![0, 144] (k0_pay4 (F := Ideal) x0 x1) slices_S3136x384_o0_144_S3136x48)
      (extractStridedSlice S3136x48 ![0, 144] (k0_pay5 (F := Ideal) x0 x1) slices_S3136x384_o0_144_S3136x48)
      (extractStridedSlice S3136x48 ![0, 144] (k0_pay6 (F := Ideal) x0 x1) slices_S3136x384_o0_144_S3136x48)
      (extractAt ![0, 0, 0] (extractStridedSlice S1x1x1 ![3, 0, 0] x2 slices_S8x1x1_o3_0_0_S1x1x1) inpos_S1x1x1_p0_0_0)
      (extractStridedSlice S384x48 ![0, 144] x3 slices_S384x384_o0_144_S384x48) (ix2 n e)
      = Cert.Xca.headK (Cert.Xca.part (fun n d => x0 (ix3 0 n d)) (fun e d => x1 (ix2 e d)) 0 3) (Cert.Xca.part (fun n d => x0 (ix3 0 n d)) (fun e d => x1 (ix2 e d)) 1 3) (Cert.Xca.part (fun n d => x0 (ix3 0 n d)) (fun e d => x1 (ix2 e d)) 2 3)
          (x2 (ix3 3 0 0)) (fun e c => x3 (ix2 e (Cert.Xca.pcol 3 c))) n e := by
  rw [headV_apply, temp_at x2 3 (by decide)]
  simp only [part_slice x0 x1 0 3 144 0 rfl rfl (k0_pay4 (F := Ideal) x0 x1) (pay4_apply x0 x1),
    part_slice x0 x1 1 3 144 384 rfl rfl (k0_pay5 (F := Ideal) x0 x1) (pay5_apply x0 x1),
    part_slice x0 x1 2 3 144 768 rfl rfl (k0_pay6 (F := Ideal) x0 x1) (pay6_apply x0 x1),
    pw_slice x3 3 144 rfl]
  rfl

/-- Head 4's share at an entry. -/
theorem share4 (x0 : FVec Ideal S1x3136x384 .f32) (x1 : FVec Ideal S1152x384 .f32) (x2 : FVec Ideal S8x1x1 .f32)
    (x3 : FVec Ideal S384x384 .f32) (n : Fin 3136) (e : Fin 384) :
    headV (extractStridedSlice S3136x48 ![0, 192] (k0_pay4 (F := Ideal) x0 x1) slices_S3136x384_o0_192_S3136x48)
      (extractStridedSlice S3136x48 ![0, 192] (k0_pay5 (F := Ideal) x0 x1) slices_S3136x384_o0_192_S3136x48)
      (extractStridedSlice S3136x48 ![0, 192] (k0_pay6 (F := Ideal) x0 x1) slices_S3136x384_o0_192_S3136x48)
      (extractAt ![0, 0, 0] (extractStridedSlice S1x1x1 ![4, 0, 0] x2 slices_S8x1x1_o4_0_0_S1x1x1) inpos_S1x1x1_p0_0_0)
      (extractStridedSlice S384x48 ![0, 192] x3 slices_S384x384_o0_192_S384x48) (ix2 n e)
      = Cert.Xca.headK (Cert.Xca.part (fun n d => x0 (ix3 0 n d)) (fun e d => x1 (ix2 e d)) 0 4) (Cert.Xca.part (fun n d => x0 (ix3 0 n d)) (fun e d => x1 (ix2 e d)) 1 4) (Cert.Xca.part (fun n d => x0 (ix3 0 n d)) (fun e d => x1 (ix2 e d)) 2 4)
          (x2 (ix3 4 0 0)) (fun e c => x3 (ix2 e (Cert.Xca.pcol 4 c))) n e := by
  rw [headV_apply, temp_at x2 4 (by decide)]
  simp only [part_slice x0 x1 0 4 192 0 rfl rfl (k0_pay4 (F := Ideal) x0 x1) (pay4_apply x0 x1),
    part_slice x0 x1 1 4 192 384 rfl rfl (k0_pay5 (F := Ideal) x0 x1) (pay5_apply x0 x1),
    part_slice x0 x1 2 4 192 768 rfl rfl (k0_pay6 (F := Ideal) x0 x1) (pay6_apply x0 x1),
    pw_slice x3 4 192 rfl]
  rfl

/-- Head 5's share at an entry. -/
theorem share5 (x0 : FVec Ideal S1x3136x384 .f32) (x1 : FVec Ideal S1152x384 .f32) (x2 : FVec Ideal S8x1x1 .f32)
    (x3 : FVec Ideal S384x384 .f32) (n : Fin 3136) (e : Fin 384) :
    headV (extractStridedSlice S3136x48 ![0, 240] (k0_pay4 (F := Ideal) x0 x1) slices_S3136x384_o0_240_S3136x48)
      (extractStridedSlice S3136x48 ![0, 240] (k0_pay5 (F := Ideal) x0 x1) slices_S3136x384_o0_240_S3136x48)
      (extractStridedSlice S3136x48 ![0, 240] (k0_pay6 (F := Ideal) x0 x1) slices_S3136x384_o0_240_S3136x48)
      (extractAt ![0, 0, 0] (extractStridedSlice S1x1x1 ![5, 0, 0] x2 slices_S8x1x1_o5_0_0_S1x1x1) inpos_S1x1x1_p0_0_0)
      (extractStridedSlice S384x48 ![0, 240] x3 slices_S384x384_o0_240_S384x48) (ix2 n e)
      = Cert.Xca.headK (Cert.Xca.part (fun n d => x0 (ix3 0 n d)) (fun e d => x1 (ix2 e d)) 0 5) (Cert.Xca.part (fun n d => x0 (ix3 0 n d)) (fun e d => x1 (ix2 e d)) 1 5) (Cert.Xca.part (fun n d => x0 (ix3 0 n d)) (fun e d => x1 (ix2 e d)) 2 5)
          (x2 (ix3 5 0 0)) (fun e c => x3 (ix2 e (Cert.Xca.pcol 5 c))) n e := by
  rw [headV_apply, temp_at x2 5 (by decide)]
  simp only [part_slice x0 x1 0 5 240 0 rfl rfl (k0_pay4 (F := Ideal) x0 x1) (pay4_apply x0 x1),
    part_slice x0 x1 1 5 240 384 rfl rfl (k0_pay5 (F := Ideal) x0 x1) (pay5_apply x0 x1),
    part_slice x0 x1 2 5 240 768 rfl rfl (k0_pay6 (F := Ideal) x0 x1) (pay6_apply x0 x1),
    pw_slice x3 5 240 rfl]
  rfl

/-- Head 6's share at an entry. -/
theorem share6 (x0 : FVec Ideal S1x3136x384 .f32) (x1 : FVec Ideal S1152x384 .f32) (x2 : FVec Ideal S8x1x1 .f32)
    (x3 : FVec Ideal S384x384 .f32) (n : Fin 3136) (e : Fin 384) :
    headV (extractStridedSlice S3136x48 ![0, 288] (k0_pay4 (F := Ideal) x0 x1) slices_S3136x384_o0_288_S3136x48)
      (extractStridedSlice S3136x48 ![0, 288] (k0_pay5 (F := Ideal) x0 x1) slices_S3136x384_o0_288_S3136x48)
      (extractStridedSlice S3136x48 ![0, 288] (k0_pay6 (F := Ideal) x0 x1) slices_S3136x384_o0_288_S3136x48)
      (extractAt ![0, 0, 0] (extractStridedSlice S1x1x1 ![6, 0, 0] x2 slices_S8x1x1_o6_0_0_S1x1x1) inpos_S1x1x1_p0_0_0)
      (extractStridedSlice S384x48 ![0, 288] x3 slices_S384x384_o0_288_S384x48) (ix2 n e)
      = Cert.Xca.headK (Cert.Xca.part (fun n d => x0 (ix3 0 n d)) (fun e d => x1 (ix2 e d)) 0 6) (Cert.Xca.part (fun n d => x0 (ix3 0 n d)) (fun e d => x1 (ix2 e d)) 1 6) (Cert.Xca.part (fun n d => x0 (ix3 0 n d)) (fun e d => x1 (ix2 e d)) 2 6)
          (x2 (ix3 6 0 0)) (fun e c => x3 (ix2 e (Cert.Xca.pcol 6 c))) n e := by
  rw [headV_apply, temp_at x2 6 (by decide)]
  simp only [part_slice x0 x1 0 6 288 0 rfl rfl (k0_pay4 (F := Ideal) x0 x1) (pay4_apply x0 x1),
    part_slice x0 x1 1 6 288 384 rfl rfl (k0_pay5 (F := Ideal) x0 x1) (pay5_apply x0 x1),
    part_slice x0 x1 2 6 288 768 rfl rfl (k0_pay6 (F := Ideal) x0 x1) (pay6_apply x0 x1),
    pw_slice x3 6 288 rfl]
  rfl

/-- Head 7's share at an entry. -/
theorem share7 (x0 : FVec Ideal S1x3136x384 .f32) (x1 : FVec Ideal S1152x384 .f32) (x2 : FVec Ideal S8x1x1 .f32)
    (x3 : FVec Ideal S384x384 .f32) (n : Fin 3136) (e : Fin 384) :
    headV (extractStridedSlice S3136x48 ![0, 336] (k0_pay4 (F := Ideal) x0 x1) slices_S3136x384_o0_336_S3136x48)
      (extractStridedSlice S3136x48 ![0, 336] (k0_pay5 (F := Ideal) x0 x1) slices_S3136x384_o0_336_S3136x48)
      (extractStridedSlice S3136x48 ![0, 336] (k0_pay6 (F := Ideal) x0 x1) slices_S3136x384_o0_336_S3136x48)
      (extractAt ![0, 0, 0] (extractStridedSlice S1x1x1 ![7, 0, 0] x2 slices_S8x1x1_o7_0_0_S1x1x1) inpos_S1x1x1_p0_0_0)
      (extractStridedSlice S384x48 ![0, 336] x3 slices_S384x384_o0_336_S384x48) (ix2 n e)
      = Cert.Xca.headK (Cert.Xca.part (fun n d => x0 (ix3 0 n d)) (fun e d => x1 (ix2 e d)) 0 7) (Cert.Xca.part (fun n d => x0 (ix3 0 n d)) (fun e d => x1 (ix2 e d)) 1 7) (Cert.Xca.part (fun n d => x0 (ix3 0 n d)) (fun e d => x1 (ix2 e d)) 2 7)
          (x2 (ix3 7 0 0)) (fun e c => x3 (ix2 e (Cert.Xca.pcol 7 c))) n e := by
  rw [headV_apply, temp_at x2 7 (by decide)]
  simp only [part_slice x0 x1 0 7 336 0 rfl rfl (k0_pay4 (F := Ideal) x0 x1) (pay4_apply x0 x1),
    part_slice x0 x1 1 7 336 384 rfl rfl (k0_pay5 (F := Ideal) x0 x1) (pay5_apply x0 x1),
    part_slice x0 x1 2 7 336 768 rfl rfl (k0_pay6 (F := Ideal) x0 x1) (pay6_apply x0 x1),
    pw_slice x3 7 336 rfl]
  rfl

/-! ## The block -/

/-- Entry (n, e) of what a grid point leaves in the output block. -/
theorem blockTerm_apply (x0 : FVec Ideal S1x3136x384 .f32) (x1 : FVec Ideal S1152x384 .f32) (x2 : FVec Ideal S8x1x1 .f32)
    (x3 : FVec Ideal S384x384 .f32) (x4 : FVec Ideal S384 .f32) (n : Fin 3136) (e : Fin 384) :
    blockTerm (F := Ideal) x0 x1 x2 x3 x4 (ix3 0 n e)
      = Cert.Xca.resK (fun n d => x0 (ix3 0 n d)) (fun e d => x1 (ix2 e d)) (fun h => x2 (ix3 h 0 0)) (fun e j => x3 (ix2 e j)) (fun e => x4 (ix1 e)) n e := by
  unfold blockTerm Cert.Xca.resK
  rw [bias_apply, acc8_eq, step_apply, share7, acc7_eq, step_apply, share6, acc6_eq, step_apply, share5,
    acc5_eq, step_apply, share4, acc4_eq, step_apply, share3, acc3_eq, step_apply, share2, acc2_eq, step_apply, share1,
    acc1_eq, step_apply, share0, acc0_apply, zero_add, Fin.sum_univ_eight]

end Cert.KernelIdeal.Block

end
-- ==== Proof.Whole.lean ====
/-
  The result array as one function of the five argument arrays: entry (b, n, e) is the head-by-head result of
  batch b's token table at (n, e).
-/
import proofs.«153895_j50328426774879_1_alg».proof.Proof.Spec
import Idealize.ShloMosaic.Lib.ValueIdx

noncomputable section

namespace Cert.Xca

open Idealize.ShloMosaic Idealize.ShloMosaic.ValueIdx

/-- Entry `i = (b, n, e)` of the result: `resK` of batch `b`'s tokens, the weights, the temperatures, the output
    projection and the bias, at (n, e). -/
def whole (a0 : (⟨3, ![32, 3136, 384]⟩ : Shape).Idx → EReal) (a1 : (⟨2, ![1152, 384]⟩ : Shape).Idx → EReal)
    (a2 : (⟨3, ![8, 1, 1]⟩ : Shape).Idx → EReal) (a3 : (⟨2, ![384, 384]⟩ : Shape).Idx → EReal)
    (a4 : (⟨1, ![384]⟩ : Shape).Idx → EReal) : (⟨3, ![32, 3136, 384]⟩ : Shape).Idx → EReal :=
  fun i => resK (fun n d => a0 (ix3 (n0 := 32) (i 0) n d)) (fun e d => a1 (ix2 e d)) (fun h => a2 (ix3 h 0 0))
    (fun e j => a3 (ix2 e j)) (fun e => a4 (ix1 e)) (i 1) (i 2)

end Cert.Xca

end
-- ==== Proof.KernelArray.lean ====
/-
  From blocks to the array. Grid point t works on batch entry t: its token block is batch t of the token array,
  the other four input blocks are their whole arrays, and the block it writes back is batch t of the result. So
  what it writes back is block t of `whole` of the argument arrays, the 32 blocks cover the result array, and
  after the run the result array is `whole` of the arguments.
-/
import proofs.«153895_j50328426774879_1_alg».proof.Proof.KernelBlock
import proofs.«153895_j50328426774879_1_alg».proof.Proof.Whole
import proofs.«153895_j50328426774879_1_alg».proof.Proof.Gen.KernelIdeal.Value

set_option maxRecDepth 65536

noncomputable section

namespace Cert.KernelIdeal.Whole

open Cert.KernelIdeal Cert.KernelIdeal.Gen Cert.KernelIdeal.Block
open Idealize.ShloMosaic Idealize.ShloMosaic.ValueIdx Idealize.ShloMosaic.TcCoe Idealize.SL.Sem
open Idealize.ShloMosaic.Pipeline (Dat)

/-! ## One entry of one block, over plain arrays -/

/-- If a token block is batch `b` of a token array, the other four blocks are their arrays, and `i` is the array
    index of block entry `j`, then the block's entry is the array function's. -/
theorem entry_eq (A0 : S32x3136x384.Idx → EReal) (A1 : S1152x384.Idx → EReal) (A2 : S8x1x1.Idx → EReal)
    (A3 : S384x384.Idx → EReal) (A4 : S384.Idx → EReal) (y0 : FVec Ideal S1x3136x384 .f32) (y1 : FVec Ideal S1152x384 .f32)
    (y2 : FVec Ideal S8x1x1 .f32) (y3 : FVec Ideal S384x384 .f32) (y4 : FVec Ideal S384 .f32) (b : Fin 32)
    (h0 : ∀ (n : Fin 3136) (d : Fin 384), y0 (ix3 0 n d) = A0 (ix3 b n d)) (h1 : y1 = A1) (h2 : y2 = A2) (h3 : y3 = A3)
    (h4 : y4 = A4) (j : S1x3136x384.Idx) (i : S32x3136x384.Idx) (hi0 : (i 0).val = b.val) (hi1 : (i 1).val = (j 1).val)
    (hi2 : (i 2).val = (j 2).val) :
    blockTerm (F := Ideal) y0 y1 y2 y3 y4 j = Cert.Xca.whole A0 A1 A2 A3 A4 i := by
  subst h1 h2 h3 h4
  have hj0 : (j 0).val = 0 := by have h : (j 0).val < 1 := (j 0).isLt; omega
  obtain ⟨n, e, rfl⟩ : ∃ (n : Fin 3136) (e : Fin 384), j = ix3 0 n e :=
    ⟨j 1, j 2, funext fun a => match a with
      | ⟨0, _⟩ => Fin.ext hj0
      | ⟨1, _⟩ => rfl
      | ⟨2, _⟩ => rfl⟩
  obtain ⟨b', n', e', rfl⟩ : ∃ (b' : Fin 32) (n' : Fin 3136) (e' : Fin 384), i = ix3 b' n' e' := ⟨i 0, i 1, i 2, eq_ix3 i⟩
  obtain rfl : b' = b := Fin.ext hi0
  obtain rfl : n' = n := Fin.ext hi1
  obtain rfl : e' = e := Fin.ext hi2
  rw [blockTerm_apply]
  unfold Cert.Xca.whole
  simp only [h0]

variable (m : (ℓ : Loc nD τ sig) → Buf (Elt Ideal) ℓ) (ρ : Dev nD → PrngReg)

/-- The result array as the function of the argument arrays the region finds. -/
abbrev G (c : Dev nD) : S32x3136x384.Idx → EReal :=
  Cert.Xca.whole (V m c main_arg0) (V m c main_arg1) (V m c main_arg2) (V m c main_arg3) (V m c main_arg4)

/-! ## The index maps -/

/-- Decided over the 32 grid points: the token window and the output window move together along the batch axis,
    one block per point, and every other block index is zero. -/
theorem idx_facts : ∀ t : Fin cfg0.N,
    win0_0.index t (0 : Fin 3) = win0_5.index t (0 : Fin 3) ∧ win0_0.index t (1 : Fin 3) = 0 ∧ win0_0.index t (2 : Fin 3) = 0
    ∧ win0_5.index t (1 : Fin 3) = 0 ∧ win0_5.index t (2 : Fin 3) = 0 ∧ win0_5.index t (0 : Fin 3) ≤ 31
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 1) = 0 :=
  (by decide +kernel : ∀ t : Fin grid0.N, _)

/-- Every batch entry is some point's block. -/
theorem idx_onto : ∀ q : Fin 32, ∃ t : Fin cfg0.N, win0_5.index t = ![q.val, 0, 0] :=
  (by decide +kernel : ∀ q : Fin 32, ∃ t : Fin grid0.N, win0_5.index t = ![q.val, 0, 0])

/-! ## What a point writes back -/

theorem flushed_eq (c : Dev nD) (t : Fin cfg0.N) :
    (dats m 0 c).flushed 5 t = ((cfg0.win 5).blk t).view.read (Elt Ideal) (G m c) := by
  rw [Cert.KernelIdeal.Value.flushed5_A, out_eq]
  obtain ⟨e0, e1, e2, e3, e4, e5, e6, e7, e8, e9, e10, e11, e12, e13⟩ := idx_facts t
  funext j
  show blockTerm (F := Ideal) (iblk m c 0 t) (iblk m c 1 t) (iblk m c 2 t) (iblk m c 3 t) (iblk m c 4 t) j
    = G m c (((cfg0.win 5).blk t).view.emb j)
  refine entry_eq (V m c main_arg0) (V m c main_arg1) (V m c main_arg2) (V m c main_arg3) (V m c main_arg4)
    (iblk m c 0 t) (iblk m c 1 t) (iblk m c 2 t) (iblk m c 3 t) (iblk m c 4 t) ⟨win0_5.index t (0 : Fin 3), by omega⟩
    ?_ ?_ ?_ ?_ ?_ j (((cfg0.win 5).blk t).view.emb j) ?_ ?_ ?_
  · intro n d
    show V m c main_arg0 (((cfg0.win 0).blk t).view.emb (ix3 0 n d)) = V m c main_arg0 (ix3 _ n d)
    refine congrArg (V m c main_arg0) (funext fun a => Fin.ext ?_)
    match a with
    | ⟨0, _⟩ => show win0_0.index t (0 : Fin 3) * 1 + 1 * 0 = win0_5.index t (0 : Fin 3); omega
    | ⟨1, _⟩ => show win0_0.index t (1 : Fin 3) * 3136 + 1 * n.val = n.val; omega
    | ⟨2, _⟩ => show win0_0.index t (2 : Fin 3) * 384 + 1 * d.val = d.val; omega
  · funext y
    show V m c main_arg1 (((cfg0.win 1).blk t).view.emb y) = V m c main_arg1 y
    refine congrArg (V m c main_arg1) (funext fun a => Fin.ext ?_)
    match a with
    | ⟨0, _⟩ => show win0_1.index t (0 : Fin 2) * 1152 + 1 * (y 0).val = (y 0).val; omega
    | ⟨1, _⟩ => show win0_1.index t (1 : Fin 2) * 384 + 1 * (y 1).val = (y 1).val; omega
  · funext y
    show V m c main_arg2 (((cfg0.win 2).blk t).view.emb y) = V m c main_arg2 y
    refine congrArg (V m c main_arg2) (funext fun a => Fin.ext ?_)
    match a with
    | ⟨0, _⟩ => show win0_2.index t (0 : Fin 3) * 8 + 1 * (y 0).val = (y 0).val; omega
    | ⟨1, _⟩ => show win0_2.index t (1 : Fin 3) * 1 + 1 * (y 1).val = (y 1).val; omega
    | ⟨2, _⟩ => show win0_2.index t (2 : Fin 3) * 1 + 1 * (y 2).val = (y 2).val; omega
  · funext y
    show V m c main_arg3 (((cfg0.win 3).blk t).view.emb y) = V m c main_arg3 y
    refine congrArg (V m c main_arg3) (funext fun a => Fin.ext ?_)
    match a with
    | ⟨0, _⟩ => show win0_3.index t (0 : Fin 2) * 384 + 1 * (y 0).val = (y 0).val; omega
    | ⟨1, _⟩ => show win0_3.index t (1 : Fin 2) * 384 + 1 * (y 1).val = (y 1).val; omega
  · funext y
    show V m c main_arg4 (((cfg0.win 4).blk t).view.emb y) = V m c main_arg4 y
    refine congrArg (V m c main_arg4) (funext fun a => Fin.ext ?_)
    match a with
    | ⟨0, _⟩ => show win0_4.index t (0 : Fin 1) * 384 + 1 * (y 0).val = (y 0).val; omega
  · show win0_5.index t (0 : Fin 3) * 1 + 1 * (j 0).val = win0_5.index t (0 : Fin 3)
    have hj : (j 0).val < 1 := (j 0).isLt
    omega
  · show win0_5.index t (1 : Fin 3) * 3136 + 1 * (j 1).val = (j 1).val; omega
  · show win0_5.index t (2 : Fin 3) * 384 + 1 * (j 2).val = (j 2).val; omega

/-! ## The cover -/

/-- An index of the result array is in point `t`'s block iff each coordinate is in the block's range. -/
theorem mem_blk (t : Fin cfg0.N) (i : S32x3136x384.Idx) :
    i ∈ ((cfg0.win 5).blk t).view.set ↔ ∀ a : Fin 3, win0_5.index t a * S1x3136x384.size a ≤ (i a).val ∧ (i a).val < win0_5.index t a * S1x3136x384.size a + S1x3136x384.size a := by
  show i ∈ ((View.whole main_v0).slice (win0_5.rect t)).set ↔ _
  rw [View.set_slice_whole, Rect.mem_set_unit]
  exact Iff.rfl

/-- Every index of the result array is in the block of the point that works on its batch entry. -/
theorem cover (i : S32x3136x384.Idx) : ∃ t : Fin cfg0.N, (cfg0.win 5).flush t = true ∧ i ∈ ((cfg0.win 5).blk t).view.set := by
  have hi0 : (i 0).val < 32 := (i 0).isLt
  have hi1 : (i 1).val < 3136 := (i 1).isLt
  have hi2 : (i 2).val < 384 := (i 2).isLt
  obtain ⟨t, ht⟩ := idx_onto ⟨(i 0).val, hi0⟩
  have q0 : win0_5.index t (0 : Fin 3) = (i 0).val := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 3136 ≤ (i 1).val ∧ (i 1).val < win0_5.index t (1 : Fin 3) * 3136 + 3136; omega
  | ⟨2, _⟩ => show win0_5.index t (2 : Fin 3) * 384 ≤ (i 2).val ∧ (i 2).val < win0_5.index t (2 : Fin 3) * 384 + 384; omega

/-! ## The array after the run, and the run -/

theorem final (c : Dev nD) : (dats m 0 c).arrAt 5 cfg0.N = G m c :=
  (dats m 0 c).arrAt_eq_of_cover 5 (G m c) (fun t _ => flushed_eq m c t) cover

/-- Every weakly fair execution of the idealized kernel ends with the result array at `whole` of the argument
    arrays and the argument arrays unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.RefRead.lean ====
/-
  The reference's result, read at one entry (batch b, token n, column e), is Spec's one-sum spelling over
  batch b's token table.
-/
import proofs.«153895_j50328426774879_1_alg».proof.Proof.Spec
import proofs.«153895_j50328426774879_1_alg».proof.Proof.Gen.ReferenceIdeal.Read

noncomputable section

open scoped BigOperators

namespace Cert.Xca

open Idealize.ShloMosaic Idealize.ShloMosaic.ValueIdx Cert.ReferenceIdeal

namespace RefRead

/-! ## The tables the reference's arguments are read as -/

/-- Batch `b`'s token table. -/
abbrev tX (x0 : FVec Ideal S32x3136x384 .f32) (b : Fin 32) : Fin 3136 → Fin 384 → EReal := fun n d => x0 (ix3 b n d)
/-- The weight table of the first projection. -/
abbrev tW (x1 : FVec Ideal S1152x384 .f32) : Fin 1152 → Fin 384 → EReal := fun e d => x1 (ix2 e d)
/-- The heads' temperatures. -/
abbrev tT (x2 : FVec Ideal S8x1x1 .f32) : Fin 8 → EReal := fun h => x2 (ix3 h 0 0)
/-- The weight table of the output projection. -/
abbrev tP (x3 : FVec Ideal S384x384 .f32) : Fin 384 → Fin 384 → EReal := fun e j => x3 (ix2 e j)
/-- The bias. -/
abbrev tB (x4 : FVec Ideal S384 .f32) : Fin 384 → EReal := fun e => x4 (ix1 e)

variable (x0 : FVec Ideal S32x3136x384 .f32) (x1 : FVec Ideal S1152x384 .f32) (x2 : FVec Ideal S8x1x1 .f32)
  (x3 : FVec Ideal S384x384 .f32) (x4 : FVec Ideal S384 .f32)

/-! ## The projected table and its three parts -/

theorem lidx0 (b : Fin 32) (n : Fin 3136) (e : Fin 1152) (k : Fin 384) :
    Read.lidx_main_v0 (ix3 b n e) k = ix3 b n k :=
  funext fun a => by match a with | ⟨0, _⟩ => rfl | ⟨1, _⟩ => rfl | ⟨2, _⟩ => rfl

theorem ridx0 (b : Fin 32) (n : Fin 3136) (e : Fin 1152) (k : Fin 384) :
    Read.ridx_main_v0 (ix3 b n e) k = ix2 e k :=
  funext fun a => by match a with | ⟨0, _⟩ => rfl | ⟨1, _⟩ => rfl

/-- The first product, at (b, n, e), is the projected table of batch `b` at (n, e). -/
theorem v0_at (b : Fin 32) (n : Fin 3136) (e : Fin 1152) :
    Read.val_main_v0 (F := Ideal) x0 x1 (ix3 b n e) = proj (tX x0 b) (tW x1) n e := by
  rw [Read.val_main_v0_apply]
  refine Finset.sum_congr rfl fun k _ => ?_
  rw [lidx0, ridx0]

/-- Splitting the 1152 columns into (part, head, channel): column s·384 + h·48 + c. -/
theorem idx1 (b : Fin 32) (n : Fin 3136) (s : Fin 3) (h : Fin 8) (c : Fin 48) :
    Read.idx_main_v1 (ix5 b n s h c) = ix3 b n (col s h c) :=
  funext fun a => Fin.ext (by
    have hb := b.isLt; have hn := n.isLt; have hs := s.isLt; have hh := h.isLt; have hc := c.isLt
    match a with
    | ⟨0, _⟩ =>
      show ((((b.val * 3136 + n.val) * 3 + s.val) * 8 + h.val) * 48 + c.val) / 3612672 = b.val
      omega
    | ⟨1, _⟩ =>
      show ((((b.val * 3136 + n.val) * 3 + s.val) * 8 + h.val) * 48 + c.val) / 1152 % 3136 = n.val
      omega
    | ⟨2, _⟩ =>
      show ((((b.val * 3136 + n.val) * 3 + s.val) * 8 + h.val) * 48 + c.val) % 1152 = s.val * 384 + h.val * 48 + c.val
      omega)

theorem v1_at (b : Fin 32) (n : Fin 3136) (s : Fin 3) (h : Fin 8) (c : Fin 48) :
    Read.val_main_v1 (F := Ideal) x0 x1 (ix5 b n s h c) = part (tX x0 b) (tW x1) s h n c := by
  rw [Read.val_main_v1_apply, idx1, v0_at]
  rfl

theorem idx2 (s : Fin 3) (b : Fin 32) (h : Fin 8) (c : Fin 48) (n : Fin 3136) :
    Read.idx_main_v2 (ix5 s b h c n) = ix5 b n s h c :=
  funext fun a => by match a with | ⟨0, _⟩ => rfl | ⟨1, _⟩ => rfl | ⟨2, _⟩ => rfl | ⟨3, _⟩ => rfl | ⟨4, _⟩ => rfl

theorem v2_at (s : Fin 3) (b : Fin 32) (h : Fin 8) (c : Fin 48) (n : Fin 3136) :
    Read.val_main_v2 (F := Ideal) x0 x1 (ix5 s b h c n) = part (tX x0 b) (tW x1) s h n c := by
  rw [Read.val_main_v2_apply, idx2, v1_at]

/-- Dropping the leading axis of extent one. -/
theorem idx4 (b : Fin 32) (h : Fin 8) (c : Fin 48) (n : Fin 3136) :
    Read.idx_main_v4 (ix4 b h c n) = ix5 (0 : Fin 1) b h c n :=
  funext fun a => Fin.ext (by
    have hb := b.isLt; have hh := h.isLt; have hc := c.isLt; have hn := n.isLt
    match a with
    | ⟨0, _⟩ => rfl
    | ⟨1, _⟩ =>
      show (((b.val * 8 + h.val) * 48 + c.val) * 3136 + n.val) / 1204224 % 32 = b.val
      omega
    | ⟨2, _⟩ =>
      show (((b.val * 8 + h.val) * 48 + c.val) * 3136 + n.val) / 150528 % 8 = h.val
      omega
    | ⟨3, _⟩ =>
      show (((b.val * 8 + h.val) * 48 + c.val) * 3136 + n.val) / 3136 % 48 = c.val
      omega
    | ⟨4, _⟩ =>
      show (((b.val * 8 + h.val) * 48 + c.val) * 3136 + n.val) % 3136 = n.val
      omega)

theorem idx3 (b : Fin 32) (h : Fin 8) (c : Fin 48) (n : Fin 3136) :
    Read.idx_main_v3 (ix5 (0 : Fin 1) b h c n) = ix5 (0 : Fin 3) b h c n :=
  funext fun a => Fin.ext (by
    match a with | ⟨0, _⟩ => rfl | ⟨1, _⟩ => rfl | ⟨2, _⟩ => rfl | ⟨3, _⟩ => rfl | ⟨4, _⟩ => rfl)

theorem idx5 (b : Fin 32) (h : Fin 8) (c : Fin 48) (n : Fin 3136) :
    Read.idx_main_v5 (ix5 (0 : Fin 1) b h c n) = ix5 (1 : Fin 3) b h c n :=
  funext fun a => Fin.ext (by
    match a with | ⟨0, _⟩ => rfl | ⟨1, _⟩ => rfl | ⟨2, _⟩ => rfl | ⟨3, _⟩ => rfl | ⟨4, _⟩ => rfl)

theorem idx7 (b : Fin 32) (h : Fin 8) (c : Fin 48) (n : Fin 3136) :
    Read.idx_main_v7 (ix5 (0 : Fin 1) b h c n) = ix5 (2 : Fin 3) b h c n :=
  funext fun a => Fin.ext (by
    match a with | ⟨0, _⟩ => rfl | ⟨1, _⟩ => rfl | ⟨2, _⟩ => rfl | ⟨3, _⟩ => rfl | ⟨4, _⟩ => rfl)

/-- The queries of head `h`, at (b, h, c, n). -/
theorem v4_at (b : Fin 32) (h : Fin 8) (c : Fin 48) (n : Fin 3136) :
    Read.val_main_v4 (F := Ideal) x0 x1 (ix4 b h c n) = part (tX x0 b) (tW x1) 0 h n c := by
  rw [Read.val_main_v4_apply, idx4, Read.val_main_v3_apply, idx3, v2_at]

/-- The keys of head `h`, at (b, h, c, n). -/
theorem v6_at (b : Fin 32) (h : Fin 8) (c : Fin 48) (n : Fin 3136) :
    Read.val_main_v6 (F := Ideal) x0 x1 (ix4 b h c n) = part (tX x0 b) (tW x1) 1 h n c := by
  rw [Read.val_main_v6_apply, show Read.idx_main_v6 (ix4 b h c n) = ix5 (0 : Fin 1) b h c n from idx4 b h c n,
    Read.val_main_v5_apply, idx5, v2_at]

/-- The values of head `h`, at (b, h, c, n). -/
theorem v8_at (b : Fin 32) (h : Fin 8) (c : Fin 48) (n : Fin 3136) :
    Read.val_main_v8 (F := Ideal) x0 x1 (ix4 b h c n) = part (tX x0 b) (tW x1) 2 h n c := by
  rw [Read.val_main_v8_apply, show Read.idx_main_v8 (ix4 b h c n) = ix5 (0 : Fin 1) b h c n from idx4 b h c n,
    Read.val_main_v7_apply, idx7, v2_at]

/-! ## Lengths, and the queries and keys divided by them -/

theorem zero_word : Read.val_main_cst (F := Ideal) (Shape.Idx.first Facts₀.h_S_) = 0 := Ideal.ofBits_zero_f32
theorem zero_word_1 : Read.val_main_cst_1 (F := Ideal) (Shape.Idx.first Facts₀.h_S_) = 0 := Ideal.ofBits_zero_f32
theorem zero_word_5 : Read.val_main_cst_5 (F := Ideal) (Shape.Idx.first Facts₀.h_S_) = 0 := Ideal.ofBits_zero_f32

theorem idx10 (b : Fin 32) (h : Fin 8) (c : Fin 48) (k : Fin 3136) :
    Read.idx_main_v10 (ix3 b h c) k = ix4 b h c k :=
  funext fun a => by match a with | ⟨0, _⟩ => rfl | ⟨1, _⟩ => rfl | ⟨2, _⟩ => rfl | ⟨3, _⟩ => rfl

/-- The squares of query channel `c`, summed over the tokens. -/
theorem v10_at (b : Fin 32) (h : Fin 8) (c : Fin 48) :
    Read.val_main_v10 (F := Ideal) x0 x1 (ix3 b h c)
      = ∑ n : Fin 3136, part (tX x0 b) (tW x1) 0 h n c * part (tX x0 b) (tW x1) 0 h n c := by
  rw [Read.val_main_v10_apply, zero_word, zero_add]
  refine Finset.sum_congr rfl fun k _ => ?_
  rw [idx10, Read.val_main_v9_apply, v4_at]
  rfl

theorem idx11 (b : Fin 32) (h : Fin 8) (c : Fin 48) :
    Read.idx_main_v11 (ix4 b h c (0 : Fin 1)) = ix3 b h c :=
  funext fun a => by match a with | ⟨0, _⟩ => rfl | ⟨1, _⟩ => rfl | ⟨2, _⟩ => rfl

theorem idx15 (b : Fin 32) (h : Fin 8) (c : Fin 48) (n : Fin 3136) :
    Read.idx_main_v15 (ix4 b h c n) = ix4 b h c (0 : Fin 1) :=
  funext fun a => by match a with | ⟨0, _⟩ => rfl | ⟨1, _⟩ => rfl | ⟨2, _⟩ => rfl | ⟨3, _⟩ => rfl

/-- The floored length of query channel `c`. -/
theorem v14_at (b : Fin 32) (h : Fin 8) (c : Fin 48) :
    Read.val_main_v14 (F := Ideal) x0 x1 (ix4 b h c (0 : Fin 1)) = len (part (tX x0 b) (tW x1) 0 h) c := by
  rw [Read.val_main_v14_apply, Read.val_main_v12_apply, Read.val_main_v11_apply, idx11, v10_at, Read.val_main_v13_apply]
  rfl

/-- The queries divided by their channel's length. -/
theorem v16_at (b : Fin 32) (h : Fin 8) (c : Fin 48) (n : Fin 3136) :
    Read.val_main_v16 (F := Ideal) x0 x1 (ix4 b h c n)
      = Ideal.div (part (tX x0 b) (tW x1) 0 h n c) (len (part (tX x0 b) (tW x1) 0 h) c) := by
  rw [Read.val_main_v16_apply, Read.val_main_v15_apply, idx15, v14_at, v4_at]
  rfl

/-- The squares of key channel `c`, summed over the tokens. -/
theorem v18_at (b : Fin 32) (h : Fin 8) (c : Fin 48) :
    Read.val_main_v18 (F := Ideal) x0 x1 (ix3 b h c)
      = ∑ n : Fin 3136, part (tX x0 b) (tW x1) 1 h n c * part (tX x0 b) (tW x1) 1 h n c := by
  rw [Read.val_main_v18_apply, zero_word_1, zero_add]
  refine Finset.sum_congr rfl fun k _ => ?_
  rw [show Read.idx_main_v18 (ix3 b h c) k = ix4 b h c k from idx10 b h c k, Read.val_main_v17_apply, v6_at]
  rfl

/-- The floored length of key channel `c`. -/
theorem v22_at (b : Fin 32) (h : Fin 8) (c : Fin 48) :
    Read.val_main_v22 (F := Ideal) x0 x1 (ix4 b h c (0 : Fin 1)) = len (part (tX x0 b) (tW x1) 1 h) c := by
  rw [Read.val_main_v22_apply, Read.val_main_v20_apply, Read.val_main_v19_apply,
    show Read.idx_main_v19 (ix4 b h c (0 : Fin 1)) = ix3 b h c from idx11 b h c, v18_at, Read.val_main_v21_apply]
  rfl

/-- The keys divided by their channel's length. -/
theorem v24_at (b : Fin 32) (h : Fin 8) (c : Fin 48) (n : Fin 3136) :
    Read.val_main_v24 (F := Ideal) x0 x1 (ix4 b h c n)
      = Ideal.div (part (tX x0 b) (tW x1) 1 h n c) (len (part (tX x0 b) (tW x1) 1 h) c) := by
  rw [Read.val_main_v24_apply, Read.val_main_v23_apply,
    show Read.idx_main_v23 (ix4 b h c n) = ix4 b h c (0 : Fin 1) from idx15 b h c n, v22_at, v6_at]
  rfl

/-! ## The logits -/

theorem lidx25 (b : Fin 32) (h : Fin 8) (c d : Fin 48) (k : Fin 3136) :
    Read.lidx_main_v25 (ix4 b h c d) k = ix4 b h c k :=
  funext fun a => by match a with | ⟨0, _⟩ => rfl | ⟨1, _⟩ => rfl | ⟨2, _⟩ => rfl | ⟨3, _⟩ => rfl

theorem ridx25 (b : Fin 32) (h : Fin 8) (c d : Fin 48) (k : Fin 3136) :
    Read.ridx_main_v25 (ix4 b h c d) k = ix4 b h d k :=
  funext fun a => by match a with | ⟨0, _⟩ => rfl | ⟨1, _⟩ => rfl | ⟨2, _⟩ => rfl | ⟨3, _⟩ => rfl

theorem idx27 (b : Fin 32) (h : Fin 8) (c d : Fin 48) :
    Read.idx_main_v27 (ix4 b h c d) = ix4 (0 : Fin 1) h (0 : Fin 1) (0 : Fin 1) :=
  funext fun a => by match a with | ⟨0, _⟩ => rfl | ⟨1, _⟩ => rfl | ⟨2, _⟩ => rfl | ⟨3, _⟩ => rfl

theorem idx26 (h : Fin 8) :
    Read.idx_main_v26 (ix4 (0 : Fin 1) h (0 : Fin 1) (0 : Fin 1)) = ix3 h (0 : Fin 1) (0 : Fin 1) :=
  funext fun a => by match a with | ⟨0, _⟩ => rfl | ⟨1, _⟩ => rfl | ⟨2, _⟩ => rfl

/-- The temperature of head `h`, spread over the head's 48 × 48 table. -/
theorem v27_at (b : Fin 32) (h : Fin 8) (c d : Fin 48) :
    Read.val_main_v27 (F := Ideal) x2 (ix4 b h c d) = tT x2 h := by
  rw [Read.val_main_v27_apply, idx27, Read.val_main_v26_apply, idx26]

/-- The logits of head `h`: each factor divided by its own length before the sum over the tokens. -/
theorem v28_at (b : Fin 32) (h : Fin 8) (c d : Fin 48) :
    Read.val_main_v28 (F := Ideal) x0 x1 x2 (ix4 b h c d)
      = logitsR (part (tX x0 b) (tW x1) 0 h) (part (tX x0 b) (tW x1) 1 h) (tT x2 h) c d := by
  rw [Read.val_main_v28_apply, v27_at, Read.val_main_v25_apply]
  refine congrArg (· * tT x2 h) (Finset.sum_congr rfl fun k _ => ?_)
  rw [lidx25, ridx25, v16_at, v24_at]

/-! ## The row maximum: a fold of the maximum over the row's 48 columns -/

/-- Row (b, h, c)'s index with column `k` put back on the last axis is (b, h, c, k). -/
theorem lift29 (hr : S32x8x48x48.Reduces [3] S32x8x48) (b : Fin 32) (h : Fin 8) (c : Fin 48)
    (k : Fin (S32x8x48x48.size 3)) : hr.lift (ix3 b h c) k = ix4 b h c (⟨k.val, k.isLt⟩ : Fin 48) :=
  funext fun a => Fin.ext (by
    match a with | ⟨0, _⟩ => rfl | ⟨1, _⟩ => rfl | ⟨2, _⟩ => rfl | ⟨3, _⟩ => rfl)

/-- The maximum over row `c` of the logits, started from −∞. -/
theorem v29_at (b : Fin 32) (h : Fin 8) (c : Fin 48) :
    Read.val_main_v29 (F := Ideal) x0 x1 x2 (ix3 b h c)
      = (Finset.univ : Finset (Fin 48)).fold max ninf
          (logitsR (part (tX x0 b) (tW x1) 0 h) (part (tX x0 b) (tW x1) 1 h) (tT x2 h) c) := by
  unfold Read.val_main_v29
  have hr : S32x8x48x48.Reduces [3] S32x8x48 := by decide
  rw [Host.reduce_eq_fold_single FloatOps.maximumf _ _ _ hr Facts₀.h_S_ (ix3 b h c)]
  have hf : (Read.val_main_v28 (F := Ideal) x0 x1 x2 ∘ hr.lift (ix3 b h c))
      = fun d : Fin 48 => logitsR (part (tX x0 b) (tW x1) 0 h) (part (tX x0 b) (tW x1) 1 h) (tT x2 h) c d :=
    funext fun k => (congrArg (Read.val_main_v28 (F := Ideal) x0 x1 x2) (lift29 hr b h c k)).trans
      (v28_at x0 x1 x2 b h c _)
  exact congrArg (fun f => Finset.fold max ninf f (Finset.univ : Finset (Fin 48))) hf

/-- The row maximum, floored once more by −∞. -/
theorem v31_at (b : Fin 32) (h : Fin 8) (c : Fin 48) :
    Read.val_main_v31 (F := Ideal) x0 x1 x2 (ix3 b h c)
      = rowmax (logitsR (part (tX x0 b) (tW x1) 0 h) (part (tX x0 b) (tW x1) 1 h) (tT x2 h)) c := by
  rw [Read.val_main_v31_apply, Read.val_main_v30_apply, v29_at]
  rfl

/-! ## Softmax along the rows -/

theorem idx33 (b : Fin 32) (h : Fin 8) (c d : Fin 48) :
    Read.idx_main_v33 (ix4 b h c d) = ix4 b h c (0 : Fin 1) :=
  funext fun a => by match a with | ⟨0, _⟩ => rfl | ⟨1, _⟩ => rfl | ⟨2, _⟩ => rfl | ⟨3, _⟩ => rfl

theorem v33_at (b : Fin 32) (h : Fin 8) (c d : Fin 48) :
    Read.val_main_v33 (F := Ideal) x0 x1 x2 (ix4 b h c d)
      = rowmax (logitsR (part (tX x0 b) (tW x1) 0 h) (part (tX x0 b) (tW x1) 1 h) (tT x2 h)) c := by
  rw [Read.val_main_v33_apply, idx33, Read.val_main_v32_apply,
    show Read.idx_main_v32 (ix4 b h c (0 : Fin 1)) = ix3 b h c from idx11 b h c, v31_at]

/-- The exponential of a logit less its row's maximum. -/
theorem v35_at (b : Fin 32) (h : Fin 8) (c d : Fin 48) :
    Read.val_main_v35 (F := Ideal) x0 x1 x2 (ix4 b h c d)
      = Ideal.exp (logitsR (part (tX x0 b) (tW x1) 0 h) (part (tX x0 b) (tW x1) 1 h) (tT x2 h) c d
          - rowmax (logitsR (part (tX x0 b) (tW x1) 0 h) (part (tX x0 b) (tW x1) 1 h) (tT x2 h)) c) := by
  rw [Read.val_main_v35_apply, Read.val_main_v34_apply, v28_at, v33_at]
  rfl

theorem idx36 (b : Fin 32) (h : Fin 8) (c : Fin 48) (k : Fin 48) :
    Read.idx_main_v36 (ix3 b h c) k = ix4 b h c k :=
  funext fun a => by match a with | ⟨0, _⟩ => rfl | ⟨1, _⟩ => rfl | ⟨2, _⟩ => rfl | ⟨3, _⟩ => rfl

/-- The row's exponentials, summed. -/
theorem v36_at (b : Fin 32) (h : Fin 8) (c : Fin 48) :
    Read.val_main_v36 (F := Ideal) x0 x1 x2 (ix3 b h c)
      = ∑ d' : Fin 48, Ideal.exp
          (logitsR (part (tX x0 b) (tW x1) 0 h) (part (tX x0 b) (tW x1) 1 h) (tT x2 h) c d'
            - rowmax (logitsR (part (tX x0 b) (tW x1) 0 h) (part (tX x0 b) (tW x1) 1 h) (tT x2 h)) c) := by
  rw [Read.val_main_v36_apply, zero_word_5, zero_add]
  refine Finset.sum_congr rfl fun k _ => ?_
  rw [idx36, v35_at]

theorem v38_at (b : Fin 32) (h : Fin 8) (c d : Fin 48) :
    Read.val_main_v38 (F := Ideal) x0 x1 x2 (ix4 b h c d)
      = ∑ d' : Fin 48, Ideal.exp
          (logitsR (part (tX x0 b) (tW x1) 0 h) (part (tX x0 b) (tW x1) 1 h) (tT x2 h) c d'
            - rowmax (logitsR (part (tX x0 b) (tW x1) 0 h) (part (tX x0 b) (tW x1) 1 h) (tT x2 h)) c) := by
  rw [Read.val_main_v38_apply, show Read.idx_main_v38 (ix4 b h c d) = ix4 b h c (0 : Fin 1) from idx33 b h c d,
    Read.val_main_v37_apply, show Read.idx_main_v37 (ix4 b h c (0 : Fin 1)) = ix3 b h c from idx11 b h c, v36_at]

/-- The softmax weights of head `h`. -/
theorem v39_at (b : Fin 32) (h : Fin 8) (c d : Fin 48) :
    Read.val_main_v39 (F := Ideal) x0 x1 x2 (ix4 b h c d)
      = soft (logitsR (part (tX x0 b) (tW x1) 0 h) (part (tX x0 b) (tW x1) 1 h) (tT x2 h)) c d := by
  rw [Read.val_main_v39_apply, v35_at, v38_at]
  rfl

/-! ## The attended values, the output projection and the bias -/

theorem lidx40 (b : Fin 32) (h : Fin 8) (c : Fin 48) (n : Fin 3136) (k : Fin 48) :
    Read.lidx_main_v40 (ix4 b h c n) k = ix4 b h c k :=
  funext fun a => by match a with | ⟨0, _⟩ => rfl | ⟨1, _⟩ => rfl | ⟨2, _⟩ => rfl | ⟨3, _⟩ => rfl

theorem ridx40 (b : Fin 32) (h : Fin 8) (c : Fin 48) (n : Fin 3136) (k : Fin 48) :
    Read.ridx_main_v40 (ix4 b h c n) k = ix4 b h k n :=
  funext fun a => by match a with | ⟨0, _⟩ => rfl | ⟨1, _⟩ => rfl | ⟨2, _⟩ => rfl | ⟨3, _⟩ => rfl

/-- Head `h`'s attended values: the softmax rows weighting the value channels. -/
theorem v40_at (b : Fin 32) (h : Fin 8) (c : Fin 48) (n : Fin 3136) :
    Read.val_main_v40 (F := Ideal) x0 x1 x2 (ix4 b h c n)
      = attR (part (tX x0 b) (tW x1) 0 h) (part (tX x0 b) (tW x1) 1 h) (part (tX x0 b) (tW x1) 2 h) (tT x2 h) n c := by
  rw [Read.val_main_v40_apply]
  refine Finset.sum_congr rfl fun k _ => ?_
  rw [lidx40, ridx40, v39_at, v8_at]

theorem idx41 (b : Fin 32) (n : Fin 3136) (h : Fin 8) (c : Fin 48) :
    Read.idx_main_v41 (ix4 b n h c) = ix4 b h c n :=
  funext fun a => by match a with | ⟨0, _⟩ => rfl | ⟨1, _⟩ => rfl | ⟨2, _⟩ => rfl | ⟨3, _⟩ => rfl

/-- Joining (head, channel) into the 384 columns: column j belongs to head j / 48, channel j % 48. -/
theorem idx42 (b : Fin 32) (n : Fin 3136) (j : Fin 384) :
    Read.idx_main_v42 (ix3 b n j) = ix4 b n (hd j) (ch j) :=
  funext fun a => Fin.ext (by
    have hb := b.isLt; have hn := n.isLt; have hj := j.isLt
    match a with
    | ⟨0, _⟩ =>
      show ((b.val * 3136 + n.val) * 384 + j.val) / 1204224 = b.val
      omega
    | ⟨1, _⟩ =>
      show ((b.val * 3136 + n.val) * 384 + j.val) / 384 % 3136 = n.val
      omega
    | ⟨2, _⟩ =>
      show ((b.val * 3136 + n.val) * 384 + j.val) / 48 % 8 = j.val / 48
      omega
    | ⟨3, _⟩ =>
      show ((b.val * 3136 + n.val) * 384 + j.val) % 48 = j.val % 48
      omega)

theorem v42_at (b : Fin 32) (n : Fin 3136) (j : Fin 384) :
    Read.val_main_v42 (F := Ideal) x0 x1 x2 (ix3 b n j)
      = attR (part (tX x0 b) (tW x1) 0 (hd j)) (part (tX x0 b) (tW x1) 1 (hd j)) (part (tX x0 b) (tW x1) 2 (hd j))
          (tT x2 (hd j)) n (ch j) := by
  rw [Read.val_main_v42_apply, idx42, Read.val_main_v41_apply, idx41, v40_at]

theorem lidx43 (b : Fin 32) (n : Fin 3136) (e : Fin 384) (k : Fin 384) :
    Read.lidx_main_v43 (ix3 b n e) k = ix3 b n k :=
  funext fun a => by match a with | ⟨0, _⟩ => rfl | ⟨1, _⟩ => rfl | ⟨2, _⟩ => rfl

theorem ridx43 (b : Fin 32) (n : Fin 3136) (e : Fin 384) (k : Fin 384) :
    Read.ridx_main_v43 (ix3 b n e) k = ix2 e k :=
  funext fun a => by match a with | ⟨0, _⟩ => rfl | ⟨1, _⟩ => rfl

/-- The output projection, all 384 columns in one sum. -/
theorem v43_at (b : Fin 32) (n : Fin 3136) (e : Fin 384) :
    Read.val_main_v43 (F := Ideal) x0 x1 x2 x3 (ix3 b n e)
      = ∑ j : Fin 384, attR (part (tX x0 b) (tW x1) 0 (hd j)) (part (tX x0 b) (tW x1) 1 (hd j))
          (part (tX x0 b) (tW x1) 2 (hd j)) (tT x2 (hd j)) n (ch j) * tP x3 e j := by
  rw [Read.val_main_v43_apply]
  refine Finset.sum_congr rfl fun k _ => ?_
  rw [lidx43, ridx43, v42_at]

theorem idx45 (b : Fin 32) (n : Fin 3136) (e : Fin 384) :
    Read.idx_main_v45 (ix3 b n e) = ix3 (0 : Fin 1) (0 : Fin 1) e :=
  funext fun a => by match a with | ⟨0, _⟩ => rfl | ⟨1, _⟩ => rfl | ⟨2, _⟩ => rfl

theorem idx44 (e : Fin 384) :
    Read.idx_main_v44 (ix3 (0 : Fin 1) (0 : Fin 1) e) = ix1 e :=
  funext fun a => by match a with | ⟨0, _⟩ => rfl

/-- The bias, spread over batches and tokens. -/
theorem v45_at (b : Fin 32) (n : Fin 3136) (e : Fin 384) :
    Read.val_main_v45 (F := Ideal) x4 (ix3 b n e) = tB x4 e := by
  rw [Read.val_main_v45_apply, idx45, Read.val_main_v44_apply, idx44]

end RefRead

theorem ref_apply (x0 : FVec Ideal S32x3136x384 .f32) (x1 : FVec Ideal S1152x384 .f32) (x2 : FVec Ideal S8x1x1 .f32)
    (x3 : FVec Ideal S384x384 .f32) (x4 : FVec Ideal S384 .f32) (b : Fin 32) (n : Fin 3136) (e : Fin 384) :
    Cert.ReferenceIdeal.Read.val_main_v46 (F := Ideal) x0 x1 x2 x3 x4 (ix3 b n e)
      = resR (fun n d => x0 (ix3 b n d)) (fun e d => x1 (ix2 e d)) (fun h => x2 (ix3 h 0 0))
          (fun e j => x3 (ix2 e j)) (fun e => x4 (ix1 e)) n e := by
  rw [Read.val_main_v46_apply, RefRead.v43_at, RefRead.v45_at]
  rfl

end Cert.Xca

end
-- ==== Proof.Law.lean ====
/-
  The two spellings of Spec agree when the token table and the weight table hold real numbers.
-/
import proofs.«153895_j50328426774879_1_alg».proof.Proof.Spec
import Mathlib.Data.EReal.Basic
import Mathlib.Data.EReal.Operations
import Mathlib.Algebra.BigOperators.Fin
import Mathlib.Tactic.Ring
import Mathlib.Tactic.NormNum
import Mathlib.Tactic.Positivity

noncomputable section

open scoped BigOperators

namespace Cert.Xca

open Idealize.ShloMosaic

/-- A finite sum of coerced reals is the coercion of the real sum. -/
private theorem coe_sum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The floor is a positive real. -/
private theorem eps_pos_real : ∃ r : ℝ, 0 < r ∧ eps = (r : EReal) := by
  unfold eps Ideal.ofBits Ideal.ieee
  simp
  refine ⟨9223372 * (2 ^ 63)⁻¹, by positivity, ?_⟩
  norm_cast

/-- The floored length of a channel of a real table is a positive real: the sum of squares is a nonnegative
    real, its root is real, and the larger of two reals is real. -/
private theorem len_pos_real (f : Fin 3136 → Fin 48 → ℝ) (c : Fin 48) :
    ∃ L : ℝ, 0 < L ∧ len (fun n c => (f n c : EReal)) c = (L : EReal) := by
  obtain ⟨r, hr, he⟩ := eps_pos_real
  refine ⟨max (Real.sqrt (∑ n : Fin 3136, f n c * f n c)) r, lt_max_of_lt_right hr, ?_⟩
  have hs : (∑ n : Fin 3136, ((f n c : ℝ) : EReal) * ((f n c : ℝ) : EReal))
      = ((∑ n : Fin 3136, f n c * f n c : ℝ) : EReal) := by
    rw [← coe_sum]
    exact Finset.sum_congr rfl (fun n _ => (EReal.coe_mul _ _).symm)
  have hnn : ¬ (∑ n : Fin 3136, f n c * f n c) < 0 :=
    not_lt.mpr (Finset.sum_nonneg (fun n _ => mul_self_nonneg _))
  simp only [len]
  rw [hs, Ideal.sqrt_coe, if_neg hnn, he]
  exact (EReal.coe_strictMono.monotone.map_max).symm

/-- With real query and key tables the two logits agree: each length is a positive real, so dividing the summed
    products by the product of the lengths is dividing each factor by its own length under the sum. -/
theorem logitsK_eq_logitsR (q k : Fin 3136 → Fin 48 → ℝ) (t : EReal) (c d : Fin 48) :
    logitsK (fun n c => (q n c : EReal)) (fun n c => (k n c : EReal)) t c d
      = logitsR (fun n c => (q n c : EReal)) (fun n c => (k n c : EReal)) t c d := by
  obtain ⟨Lq, hLq, hq⟩ := len_pos_real q c
  obtain ⟨Lk, hLk, hk⟩ := len_pos_real k d
  simp only [logitsK, logitsR]
  rw [hq, hk]
  refine congrArg (fun x : EReal => x * t) ?_
  -- both sides are coercions of reals
  have hden : ((Lq : ℝ) : EReal) * ((Lk : ℝ) : EReal) = ((Lq * Lk : ℝ) : EReal) := (EReal.coe_mul _ _).symm
  have hl : (∑ n : Fin 3136, ((q n c : ℝ) : EReal) * ((k n d : ℝ) : EReal))
      = ((∑ n : Fin 3136, q n c * k n d : ℝ) : EReal) := by
    rw [← coe_sum]
    exact Finset.sum_congr rfl (fun n _ => (EReal.coe_mul _ _).symm)
  have hr : (∑ n : Fin 3136, Ideal.div ((q n c : ℝ) : EReal) (Lq : EReal) * Ideal.div ((k n d : ℝ) : EReal) (Lk : EReal))
      = ((∑ n : Fin 3136, (q n c * (1 / Lq)) * (k n d * (1 / Lk)) : ℝ) : EReal) := by
    rw [← coe_sum]
    refine Finset.sum_congr rfl (fun n _ => ?_)
    rw [Ideal.div_coe hLq.ne', Ideal.div_coe hLk.ne', ← EReal.coe_mul, ← EReal.coe_mul, ← EReal.coe_mul]
  rw [hden, Ideal.div_coe (mul_pos hLq hLk).ne', hl, hr, ← EReal.coe_mul]
  refine congrArg (fun x : ℝ => (x : EReal)) ?_
  -- the identity over the reals, term by term
  rw [Finset.sum_mul]
  refine Finset.sum_congr rfl (fun n _ => ?_)
  rw [one_div, one_div, one_div, mul_inv]
  ring

/-- The head of column `h * 48 + c` is `h`. -/
private theorem hd_pcol (h : Fin 8) (c : Fin 48) : hd (pcol h c) = h := by
  apply Fin.ext
  simp only [hd, pcol]
  have := c.isLt
  omega

/-- The channel of column `h * 48 + c` is `c`. -/
private theorem ch_pcol (h : Fin 8) (c : Fin 48) : ch (pcol h c) = c := by
  apply Fin.ext
  simp only [ch, pcol]
  have := c.isLt
  omega

/-- A column is the column of its head and its channel. -/
private theorem pcol_hd_ch (j : Fin 384) : pcol (hd j) (ch j) = j := by
  apply Fin.ext
  simp only [hd, ch, pcol]
  omega

/-- The 384 columns are the pairs of a head and a channel. -/
private def colEquiv : Fin 8 × Fin 48 ≃ Fin 384 where
  toFun p := pcol p.1 p.2
  invFun j := (hd j, ch j)
  left_inv p := Prod.ext (hd_pcol p.1 p.2) (ch_pcol p.1 p.2)
  right_inv j := pcol_hd_ch j

/-- A sum over the 384 columns is a sum over the heads of sums over the channels. Addition of extended reals is
    commutative and associative, so nothing about finiteness is needed. -/
private theorem sum_cols (F : Fin 384 → EReal) :
    ∑ j : Fin 384, F j = ∑ h : Fin 8, ∑ c : Fin 48, F (pcol h c) := by
  rw [← Equiv.sum_comp colEquiv F, Fintype.sum_prod_type]
  rfl

/-- With real token and weight tables every part of every head is a real table: a finite sum of products of
    reals. -/
private theorem part_real (X : Fin 3136 → Fin 384 → EReal) (W : Fin 1152 → Fin 384 → EReal)
    (x : Fin 3136 → Fin 384 → ℝ) (w : Fin 1152 → Fin 384 → ℝ)
    (hx : ∀ n d, X n d = (x n d : EReal)) (hw : ∀ e d, W e d = (w e d : EReal)) (s : Fin 3) (h : Fin 8) :
    part X W s h = fun n c => ((∑ d : Fin 384, x n d * w (col s h c) d : ℝ) : EReal) := by
  funext n c
  simp only [part, proj]
  rw [← coe_sum]
  exact Finset.sum_congr rfl (fun d _ => by rw [hx, hw, EReal.coe_mul])

/-- The head-by-head result is the one-sum result, for real token and weight tables. -/
theorem resK_eq_resR (X : Fin 3136 → Fin 384 → EReal) (W : Fin 1152 → Fin 384 → EReal) (T : Fin 8 → EReal)
    (P : Fin 384 → Fin 384 → EReal) (B : Fin 384 → EReal)
    (hX : ∀ n d, ∃ r : ℝ, X n d = (r : EReal)) (hW : ∀ e d, ∃ r : ℝ, W e d = (r : EReal))
    (n : Fin 3136) (e : Fin 384) :
    resK X W T P B n e = resR X W T P B n e := by
  choose x hx using hX
  choose w hw using hW
  simp only [resK, resR]
  refine congrArg (fun y : EReal => y + B e) ?_
  -- the one sum over 384 columns, regrouped by head
  rw [sum_cols]
  refine Finset.sum_congr rfl (fun h _ => ?_)
  -- one head: its query and key tables are real, so its two logits agree
  have hL : logitsK (part X W 0 h) (part X W 1 h) (T h) = logitsR (part X W 0 h) (part X W 1 h) (T h) := by
    rw [part_real X W x w hx hw 0 h, part_real X W x w hx hw 1 h]
    funext c d
    exact logitsK_eq_logitsR _ _ _ c d
  simp only [headK, attR, hd_pcol, ch_pcol]
  rw [hL]
  refine Finset.sum_congr rfl (fun c _ => ?_)
  refine congrArg (fun y : EReal => y * P e (pcol h c)) ?_
  -- the two factors of the weighted sum, in the other order
  exact Finset.sum_congr rfl (fun d _ => mul_comm _ _)

end Cert.Xca

end
-- ==== Proof.RefWhole.lean ====
/-
  The reference's result array is `whole` of the arguments, when the token array and the first weight array hold
  real numbers: entry by entry it is the one-sum spelling, which for real tables is the head-by-head one.
-/
import proofs.«153895_j50328426774879_1_alg».proof.Proof.Whole
import proofs.«153895_j50328426774879_1_alg».proof.Proof.RefRead
import proofs.«153895_j50328426774879_1_alg».proof.Proof.Law

noncomputable section

namespace Cert.Xca

open Idealize.ShloMosaic Idealize.ShloMosaic.ValueIdx Cert.ReferenceIdeal

theorem ref_whole (x0 : FVec Ideal S32x3136x384 .f32) (x1 : FVec Ideal S1152x384 .f32) (x2 : FVec Ideal S8x1x1 .f32)
    (x3 : FVec Ideal S384x384 .f32) (x4 : FVec Ideal S384 .f32)
    (hX : ∀ i, ∃ r : ℝ, x0 i = (r : EReal)) (hW : ∀ i, ∃ r : ℝ, x1 i = (r : EReal)) :
    Cert.ReferenceIdeal.Read.val_main_v46 (F := Ideal) x0 x1 x2 x3 x4 = whole x0 x1 x2 x3 x4 := by
  funext i
  obtain ⟨b, n, e, rfl⟩ : ∃ (b : Fin 32) (n : Fin 3136) (e : Fin 384), i = ix3 b n e := ⟨i 0, i 1, i 2, eq_ix3 i⟩
  rw [ref_apply]
  exact (resK_eq_resR _ _ _ _ _ (fun n d => hX _) (fun e d => hW _) n e).symm

end Cert.Xca

end
-- ==== Proof.Finite.lean ====
/-
  The precondition says every entry of every input is finite; what the proof uses of it is that the token
  array and the first weight array hold real numbers.
-/
import proofs.«153895_j50328426774879_1_alg».proof.Pre_finite_inputs
import proofs.«153895_j50328426774879_1_alg».proof.Proof.Gen.Pre_finite_inputs
import Idealize.ShloMosaic.Lib.ReduceAll
import Idealize.ShloMosaic.Lib.ValueIdx

noncomputable section

namespace Cert.Xca

open Idealize.ShloMosaic Cert.Pre_finite_inputs

/-- The word with an all-ones exponent, a zero significand and a clear sign denotes the upper infinity. -/
private theorem inf_word : Ideal.ofBits .f32 0x7F800000#32 = (⊤ : EReal) := by
  simp [Ideal.ofBits, Ideal.ieee]

/-- An extended real whose absolute value, max a (-a), lies strictly under the upper infinity is a real number:
    at ⊥ the absolute value is -⊥ = ⊤, at ⊤ it is ⊤ itself, and ⊤ < ⊤ is absurd. -/
private theorem real_of_abs_lt_top (a : EReal) (h : max a (-a) < ⊤) : ∃ r : ℝ, a = (r : EReal) := by
  induction a using EReal.rec with
  | bot => simp at h
  | top => simp at h
  | coe r => exact ⟨r, rfl⟩

/-- One entry of a table, read out of the comparison |x| < +inf taken entry by entry against the broadcast
    constant: where the comparison's bit is set, the entry is a real number. -/
private theorem entry_real {s : Shape} (hb : S_.BroadcastsInDim s (![] : Fin 0 → Fin s.rank)) (x : FVec Ideal s .f32) (i : s.Idx)
    (e : cmpf .olt (Host.absf (F := Ideal) x) (broadcastInDim s ![] hb (constant (F := Ideal) S_ .f32 0x7F800000#32)) i = 1#1) :
    ∃ r : ℝ, x i = (r : EReal) := by
  apply real_of_abs_lt_top
  -- the comparison's bit is the truth value of |x i| < +inf
  have e' : BitVec.ofBool (decide (max (x i) (-(x i)) < Ideal.ofBits .f32 0x7F800000#32)) = 1#1 := e
  rw [inf_word] at e'
  by_contra hn
  rw [decide_eq_false hn] at e'
  exact absurd e' (by decide)

theorem finite_of_pre (x0 : FVec Ideal S32x3136x384 .f32) (x1 : FVec Ideal S1152x384 .f32) (x2 : FVec Ideal S8x1x1 .f32)
    (x3 : FVec Ideal S384x384 .f32) (x4 : FVec Ideal S384 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) := by
  -- the one entry of the result is the conjunction ((((a0 ∧ a1) ∧ a2) ∧ a3) ∧ a4) of the five inputs' tests
  have h0 := congrFun h ValueIdx.ix0
  dsimp only [fn, fn_part1] at h0
  change IntOp.andi _ _ = 1#1 at h0
  obtain ⟨h1, -⟩ := IntOp.andi_eq_one.1 h0
  change IntOp.andi _ _ = 1#1 at h1
  obtain ⟨h2, -⟩ := IntOp.andi_eq_one.1 h1
  change IntOp.andi _ _ = 1#1 at h2
  obtain ⟨h3, -⟩ := IntOp.andi_eq_one.1 h2
  change IntOp.andi _ _ = 1#1 at h3
  obtain ⟨a0, a1⟩ := IntOp.andi_eq_one.1 h3
  -- the result of each test has no axes, hence one index only
  haveI : Subsingleton S_.Idx := ⟨fun a b => funext fun d => d.elim0⟩
  -- a conjunction over all entries that holds, holds at each entry; there the entry is real
  exact ⟨fun i => entry_real _ x0 i (Host.reduce_andi_all _ _ _ _ _ a0 i),
    fun i => entry_real _ x1 i (Host.reduce_andi_all _ _ _ _ _ a1 i)⟩

end Cert.Xca

end
-- ==== Proof.lean ====
/-
  Cross-covariance attention with length-normalised queries and keys: the kernel against its reference.

  Both programs project the tokens of a batch entry by one weight table and split the 1152 projected columns
  into queries, keys and values of eight heads of 48 channels. Per head, a channel's length over the 3136
  tokens is the root of its sum of squares, floored by one small positive constant (the same word in both
  programs); the 48 × 48 logits are the cross-covariance of query and key channels over the tokens, divided by
  the two lengths and scaled by the head's temperature; their rows pass through softmax and weight the value
  channels; the result is projected by P and the bias is added.

  The kernel works on one batch entry per grid point, divides the summed products once by the product of the
  two lengths, and adds the eight heads' projected shares into its output block from zero. The reference
  divides each factor by its own length before the sum, and projects all 384 columns in one product. At the
  ideal values (format changes are the identity, a product into a zero accumulator is the exact sum) the two
  agree as soon as the token array and the first weight array hold real numbers, which the precondition gives:
  then every length is a positive real and the one division is the two divisions under the sum; the regrouping
  of the 384 columns by head needs only that addition is commutative and associative.

  Proof/Spec states both spellings over plain tables, Proof/Law joins them, Proof/Finite reads the
  precondition, Proof/KernelPieces to Proof/KernelArray read the kernel's result array as one function of its
  arguments, Proof/RefRead and Proof/RefWhole the reference's.
-/
import proofs.«153895_j50328426774879_1_alg».proof.Defs
import proofs.«153895_j50328426774879_1_alg».proof.Proof.Gen.Kernel
import proofs.«153895_j50328426774879_1_alg».proof.Proof.Gen.Kernel.Frame
import proofs.«153895_j50328426774879_1_alg».proof.Proof.Gen.KernelIdeal
import proofs.«153895_j50328426774879_1_alg».proof.Proof.Gen.KernelIdeal.Frame
import proofs.«153895_j50328426774879_1_alg».proof.Proof.Gen.KernelIdeal.Value
import proofs.«153895_j50328426774879_1_alg».proof.Proof.Gen.ReferenceIdeal
import proofs.«153895_j50328426774879_1_alg».proof.Proof.Gen.ReferenceIdeal.Run
import proofs.«153895_j50328426774879_1_alg».proof.Proof.Gen.ReferenceIdeal.Read
import proofs.«153895_j50328426774879_1_alg».proof.Proof.Gen.Pre_finite_inputs
import proofs.«153895_j50328426774879_1_alg».proof.Proof.KernelArray
import proofs.«153895_j50328426774879_1_alg».proof.Proof.RefWhole
import proofs.«153895_j50328426774879_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- So does the reference: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at the ideal values: nothing was rewritten. -/
theorem preserves : Cert.preserves_Kernel_KernelIdeal := trivial

/-- From memories agreeing on the arguments, both programs end with the result array at `Xca.whole` of the
    arguments: the kernel block by block, the reference entry by entry through the law for real tables. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hW⟩ := Cert.Xca.finite_of_pre _ _ _ _ _ (hpre c)
  rw [Cert.ReferenceIdeal.Read.val_main_v46_eq, (hagree c).1, (hagree c).2.1, (hagree c).2.2.1, (hagree c).2.2.2.1,
    (hagree c).2.2.2.2]
  exact Cert.Xca.ref_whole _ _ _ _ _ hX hW

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
